-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S256x50257 : Shape := ⟨2, ![256, 50257]⟩
abbrev S256 : Shape := ⟨1, ![256]⟩
abbrev S256x256 : Shape := ⟨2, ![256, 256]⟩
abbrev S20x256 : Shape := ⟨2, ![20, 256]⟩
abbrev S20 : Shape := ⟨1, ![20]⟩
abbrev S_ : Shape := ⟨0, ![]⟩

class Facts : Prop where
  bcast_S_S256x50257 : S_.BroadcastsInDim S256x50257 (![] : Fin 0 → Fin S256x50257.rank)
  reducesTo_S256x50257_S_d0_1 : S256x50257.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_arg5 : FVec F S20x256 .f32) (main_arg6 : FVec F S20 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S20x256 .f32 := Host.absf main_arg5
  let main_cst_6 : FVec F S_ .f32 := constant S_ .f32 0x7F800000#32
  let main_v20 : FVec F S20x256 .f32 := broadcastInDim S20x256 ![] bcast_S_S20x256 main_cst_6
  let main_v21 : IVec S20x256 1 := cmpf .olt main_v19 main_v20
  let main_c_7 : IVec S_ 1 := constantI S_ 1 1#1
  let main_v22 : IVec S_ 1 := (fun x v => Host.reduce IntOp.andi x v reducesTo_S20x256_S_d0_1 h_S_) main_v21 main_c_7
  let main_v23 : IVec S_ 1 := andi main_v18 main_v22
  let main_v24 : FVec F S20 .f32 := Host.absf main_arg6
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_c_10 : IVec S_ 32 := constantI S_ 32 0#32
  let main_v29 : IVec S4096x200 32 := broadcastInDim S4096x200 ![] bcast_S_S4096x200 main_c_10
  let main_v30 : IVec S4096x200 1 := cmpi .sge main_arg0 main_v29
  let main_c_11 : IVec S_ 1 := constantI S_ 1 1#1
  let main_v31 : IVec S_ 1 := (fun x v => Host.reduce IntOp.andi x v reducesTo_S4096x200_S_d0_1 h_S_) main_v30 main_c_11
  let main_v32 : IVec S_ 1 := andi main_v28 main_v31
  main_v32

def fn {F : FTy → Type} [FloatOps F] (main_arg0 : IVec S4096x200 32) (main_arg1 : FVec F S256x50257 .f32) (main_arg2 : FVec F S256 .f32) (main_arg3 : FVec F S256x256 .f32) (main_arg4 : FVec F S256 .f32) (main_arg5 : FVec F S20x256 .f32) (main_arg6 : FVec F S20 .f32) : IVec S_ 1 :=
  let main_v0 : FVec F S256x50257 .f32 := Host.absf main_arg1
  let main_cst : FVec F S_ .f32 := constant S_ .f32 0x7F800000#32
  let main_v1 : FVec F S256x50257 .f32 := broadcastInDim S256x50257 ![] bcast_S_S256x50257 main_cst
  let main_v2 : IVec S256x50257 1 := cmpf .olt main_v0 main_v1
  let main_c : IVec S_ 1 := constantI S_ 1 1#1
  let main_v3 : IVec S_ 1 := (fun x v => Host.reduce IntOp.andi x v reducesTo_S256x50257_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_arg6 main_v13 main_v16
-- ==== Kernel.lean ====
abbrev S4096x200 : Shape := ⟨2, ![4096, 200]⟩
abbrev S256x50257 : Shape := ⟨2, ![256, 50257]⟩
abbrev S256 : Shape := ⟨1, ![256]⟩
abbrev S256x256 : Shape := ⟨2, ![256, 256]⟩
abbrev S20x256 : Shape := ⟨2, ![20, 256]⟩
abbrev S20 : Shape := ⟨1, ![20]⟩
abbrev S50257x256 : Shape := ⟨2, ![50257, 256]⟩
abbrev S_ : Shape := ⟨0, ![]⟩
abbrev S51200x256 : Shape := ⟨2, ![51200, 256]⟩
abbrev S256x20 : Shape := ⟨2, ![256, 20]⟩
abbrev S1x256 : Shape := ⟨2, ![1, 256]⟩
abbrev S1x20 : Shape := ⟨2, ![1, 20]⟩
abbrev S4096x20 : Shape := ⟨2, ![4096, 20]⟩
abbrev S1024x200 : Shape := ⟨2, ![1024, 200]⟩
abbrev S1024x256 : Shape := ⟨2, ![1024, 256]⟩
abbrev S1024x20 : Shape := ⟨2, ![1024, 20]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 20
  | .vmem => 12
  | .smem => 0
  | _ => 0

abbrev bufTy : (tb : Table) → Fin (tcTables nBuf tb) → BufTy
  | .hbm, ⟨0, _⟩ => ⟨S4096x200, .i32⟩
  | .hbm, ⟨1, _⟩ => ⟨S256x50257, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S20x256, .f32⟩
  | .hbm, ⟨6, _⟩ => ⟨S20, .f32⟩
  | .hbm, ⟨7, _⟩ => ⟨S50257x256, .f32⟩
  | .hbm, ⟨8, _⟩ => ⟨S_, .i32⟩
  | .hbm, ⟨9, _⟩ => ⟨S_, .f32⟩
  | .hbm, ⟨10, _⟩ => ⟨S51200x256, .f32⟩
  | .hbm, ⟨11, _⟩ => ⟨S51200x256, .bf16⟩
  | .hbm, ⟨12, _⟩ => ⟨S256x256, .f32⟩
  | .hbm, ⟨13, _⟩ => ⟨S256x256, .bf16⟩
  | .hbm, ⟨14, _⟩ => ⟨S256x20, .f32⟩
  | .hbm, ⟨15, _⟩ => ⟨S256x20, .bf16⟩
  | .hbm, ⟨16, _⟩ => ⟨S1x256, .f32⟩
  | .hbm, ⟨17, _⟩ => ⟨S1x256, .f32⟩
  | .hbm, ⟨18, _⟩ => ⟨S1x20, .f32⟩
  | .hbm, ⟨19, _⟩ => ⟨S4096x20, .f32⟩
  | .local _ .vmem, ⟨0, _⟩ => ⟨S1024x200, .i32⟩
  | .local _ .vmem, ⟨1, _⟩ => ⟨S1024x200, .i32⟩
  | .local _ .vmem, ⟨2, _⟩ => ⟨S1024x256, .bf16⟩
  | .local _ .vmem, ⟨3, _⟩ => ⟨S1024x256, .bf16⟩
  | .local _ .vmem, ⟨4, _⟩ => ⟨S256x256, .bf16⟩
  | .local _ .vmem, ⟨5, _⟩ => ⟨S256x20, .bf16⟩
  | .local _ .vmem, ⟨6, _⟩ => ⟨S1x256, .f32⟩
  | .local _ .vmem, ⟨7, _⟩ => ⟨S1x256, .f32⟩
  | .local _ .vmem, ⟨8, _⟩ => ⟨S1x20, .f32⟩
  | .local _ .vmem, ⟨9, _⟩ => ⟨S1024x20, .f32⟩
  | .local _ .vmem, ⟨10, _⟩ => ⟨S1024x20, .f32⟩
  | .local _ .vmem, ⟨11, _⟩ => ⟨S1024x256, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v1420 : BitVec 1 := Scalar.cmpi .eq arg1 c49_i32
  let v1421 : BitVec 32 := Scalar.extui v1420
  let c0_i32_10 : BitVec 32 := 0#32
  let v1422 : BitVec 1 := Scalar.cmpi .ne v1421 c0_i32_10
  v1422

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S256x50257_S50257x256_1_0 : S256x50257.Transposes [1, 0] S50257x256
  pads_S50257x256_S51200x256_09430_000 : S50257x256.Pads (![0, 0] : Fin 2 → Nat) ![943, 0] ![0, 0] S51200x256
  h_S_ : 0 < S_.numel
  bitsLt_bf16_f32 : FTy.bits .bf16 < FTy.bits .f32
  transposes_S256x256_S256x256_1_0 : S256x256.Transposes [1, 0] S256x256
  transposes_S20x256_S256x20_1_0 : S20x256.Transposes [1, 0] S256x20
  shapeCasts_S256_S1x256 : S256.ShapeCasts S1x256
  shapeCasts_S20_S1x20 : S20.ShapeCasts S1x20
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1x1024_d1_w32 : S1x1024.Iotas .tc 32 [1]
  inb_S1024x200_S1024x200_0_0 : ∀ a, (![0, 0] : Fin 2 → Nat) a + S1024x200.size a ≤ S1024x200.size a
  h_S1024x200 : 0 < S1024x200.numel
  slices_S1024x200_o0_0_S1024x1 : S1024x200.Slices ![0, 0] S1024x1
  broadcasts_S1024x1_S1024x1024 : S1024x1.Broadcasts S1024x1024
  broadcasts_S1x1024_S1024x1024 : S1x1024.Broadcasts S1024x1024
  natLt_1_32 : 1 < 32
  slices_S1024x200_o0_1_S1024x1 : S1024x200.Slices ![0, 1] S1024x1
  slices_S1024x200_o0_2_S1024x1 : S1024x200.Slices ![0, 2] S1024x1
  slices_S1024x200_o0_3_S1024x1 : S1024x200.Slices ![0, 3] S1024x1
  slices_S1024x200_o0_4_S1024x1 : S1024x200.Slices ![0, 4] S1024x1
  slices_S1024x200_o0_5_S1024x1 : S1024x200.Slices ![0, 5] S1024x1
  slices_S1024x200_o0_6_S1024x1 : S1024x200.Slices ![0, 6] S1024x1
  slices_S1024x200_o0_7_S1024x1 : S1024x200.Slices ![0, 7] S1024x1
  slices_S1024x200_o0_8_S1024x1 : S1024x200.Slices ![0, 8] S1024x1
  slices_S1024x200_o0_9_S1024x1 : S1024x200.Slices ![0, 9] S1024x1
  slices_S1024x200_o0_10_S1024x1 : S1024x200.Slices ![0, 10] S1024x1
  slices_S1024x200_o0_11_S1024x1 : S1024x200.Slices ![0, 11] S1024x1
  slices_S1024x200_o0_12_S1024x1 : S1024x200.Slices ![0, 12] S1024x1
  slices_S1024x200_o0_13_S1024x1 : S1024x200.Slices ![0, 13] S1024x1
  slices_S1024x200_o0_14_S1024x1 : S1024x200.Slices ![0, 14] S1024x1
  slices_S1024x200_o0_15_S1024x1 : S1024x200.Slices ![0, 15] S1024x1
  slices_S1024x200_o0_16_S1024x1 : S1024x200.Slices ![0, 16] S1024x1
  slices_S1024x200_o0_17_S1024x1 : S1024x200.Slices ![0, 17] S1024x1
  slices_S1024x200_o0_18_S1024x1 : S1024x200.Slices ![0, 18] S1024x1
  slices_S1024x200_o0_19_S1024x1 : S1024x200.Slices ![0, 19] S1024x1
  slices_S1024x200_o0_20_S1024x1 : S1024x200.Slices ![0, 20] S1024x1
  slices_S1024x200_o0_21_S1024x1 : S1024x200.Slices ![0, 21] S1024x1
  slices_S1024x200_o0_22_S1024x1 : S1024x200.Slices ![0, 22] S1024x1
  slices_S1024x200_o0_23_S1024x1 : S1024x200.Slices ![0, 23] S1024x1
  slices_S1024x200_o0_24_S1024x1 : S1024x200.Slices ![0, 24] S1024x1
  slices_S1024x200_o0_25_S1024x1 : S1024x200.Slices ![0, 25] S1024x1
  slices_S1024x200_o0_26_S1024x1 : S1024x200.Slices ![0, 26] S1024x1
  slices_S1024x200_o0_27_S1024x1 : S1024x200.Slices ![0, 27] S1024x1
  slices_S1024x200_o0_28_S1024x1 : S1024x200.Slices ![0, 28] S1024x1
  slices_S1024x200_o0_29_S1024x1 : S1024x200.Slices ![0, 29] S1024x1
  slices_S1024x200_o0_30_S1024x1 : S1024x200.Slices ![0, 30] S1024x1
  slices_S1024x200_o0_31_S1024x1 : S1024x200.Slices ![0, 31] S1024x1
  slices_S1024x200_o0_32_S1024x1 : S1024x200.Slices ![0, 32] S1024x1
  slices_S1024x200_o0_33_S1024x1 : S1024x200.Slices ![0, 33] S1024x1
  slices_S1024x200_o0_34_S1024x1 : S1024x200.Slices ![0, 34] S1024x1
  slices_S1024x200_o0_35_S1024x1 : S1024x200.Slices ![0, 35] S1024x1
  slices_S1024x200_o0_36_S1024x1 : S1024x200.Slices ![0, 36] S1024x1
  slices_S1024x200_o0_37_S1024x1 : S1024x200.Slices ![0, 37] S1024x1
  slices_S1024x200_o0_38_S1024x1 : S1024x200.Slices ![0, 38] S1024x1
  slices_S1024x200_o0_39_S1024x1 : S1024x200.Slices ![0, 39] S1024x1
  slices_S1024x200_o0_40_S1024x1 : S1024x200.Slices ![0, 40] S1024x1
  slices_S1024x200_o0_41_S1024x1 : S1024x200.Slices ![0, 41] S1024x1
  slices_S1024x200_o0_42_S1024x1 : S1024x200.Slices ![0, 42] S1024x1
  slices_S1024x200_o0_43_S1024x1 : S1024x200.Slices ![0, 43] S1024x1
  slices_S1024x200_o0_44_S1024x1 : S1024x200.Slices ![0, 44] S1024x1
  slices_S1024x200_o0_45_S1024x1 : S1024x200.Slices ![0, 45] S1024x1
  slices_S1024x200_o0_46_S1024x1 : S1024x200.Slices ![0, 46] S1024x1
  slices_S1024x200_o0_47_S1024x1 : S1024x200.Slices ![0, 47] S1024x1
  slices_S1024x200_o0_48_S1024x1 : S1024x200.Slices ![0, 48] S1024x1
  slices_S1024x200_o0_49_S1024x1 : S1024x200.Slices ![0, 49] S1024x1
  slices_S1024x200_o0_50_S1024x1 : S1024x200.Slices ![0, 50] S1024x1
  slices_S1024x200_o0_51_S1024x1 : S1024x200.Slices ![0, 51] S1024x1
  slices_S1024x200_o0_52_S1024x1 : S1024x200.Slices ![0, 52] S1024x1
  slices_S1024x200_o0_53_S1024x1 : S1024x200.Slices ![0, 53] S1024x1
  slices_S1024x200_o0_54_S1024x1 : S1024x200.Slices ![0, 54] S1024x1
  slices_S1024x200_o0_55_S1024x1 : S1024x200.Slices ![0, 55] S1024x1
  slices_S1024x200_o0_56_S1024x1 : S1024x200.Slices ![0, 56] S1024x1
  slices_S1024x200_o0_57_S1024x1 : S1024x200.Slices ![0, 57] S1024x1
  slices_S1024x200_o0_58_S1024x1 : S1024x200.Slices ![0, 58] S1024x1
  slices_S1024x200_o0_59_S1024x1 : S1024x200.Slices ![0, 59] S1024x1
  slices_S1024x200_o0_60_S1024x1 : S1024x200.Slices ![0, 60] S1024x1
  slices_S1024x200_o0_61_S1024x1 : S1024x200.Slices ![0, 61] S1024x1
  slices_S1024x200_o0_62_S1024x1 : S1024x200.Slices ![0, 62] S1024x1
  slices_S1024x200_o0_63_S1024x1 : S1024x200.Slices ![0, 63] S1024x1
  slices_S1024x200_o0_64_S1024x1 : S1024x200.Slices ![0, 64] S1024x1
  slices_S1024x200_o0_65_S1024x1 : S1024x200.Slices ![0, 65] S1024x1
  slices_S1024x200_o0_66_S1024x1 : S1024x200.Slices ![0, 66] S1024x1
  slices_S1024x200_o0_67_S1024x1 : S1024x200.Slices ![0, 67] S1024x1
  slices_S1024x200_o0_68_S1024x1 : S1024x200.Slices ![0, 68] S1024x1
  slices_S1024x200_o0_69_S1024x1 : S1024x200.Slices ![0, 69] S1024x1
  slices_S1024x200_o0_70_S1024x1 : S1024x200.Slices ![0, 70] S1024x1
  slices_S1024x200_o0_71_S1024x1 : S1024x200.Slices ![0, 71] S1024x1
  slices_S1024x200_o0_72_S1024x1 : S1024x200.Slices ![0, 72] S1024x1
  slices_S1024x200_o0_73_S1024x1 : S1024x200.Slices ![0, 73] S1024x1
  slices_S1024x200_o0_74_S1024x1 : S1024x200.Slices ![0, 74] S1024x1
  slices_S1024x200_o0_75_S1024x1 : S1024x200.Slices ![0, 75] S1024x1
  slices_S1024x200_o0_76_S1024x1 : S1024x200.Slices ![0, 76] S1024x1
  slices_S1024x200_o0_77_S1024x1 : S1024x200.Slices ![0, 77] S1024x1
  slices_S1024x200_o0_78_S1024x1 : S1024x200.Slices ![0, 78] S1024x1
  slices_S1024x200_o0_79_S1024x1 : S1024x200.Slices ![0, 79] S1024x1
  slices_S1024x200_o0_80_S1024x1 : S1024x200.Slices ![0, 80] S1024x1
  slices_S1024x200_o0_81_S1024x1 : S1024x200.Slices ![0, 81] S1024x1
  slices_S1024x200_o0_82_S1024x1 : S1024x200.Slices ![0, 82] S1024x1
  slices_S1024x200_o0_83_S1024x1 : S1024x200.Slices ![0, 83] S1024x1
  slices_S1024x200_o0_84_S1024x1 : S1024x200.Slices ![0, 84] S1024x1
  slices_S1024x200_o0_85_S1024x1 : S1024x200.Slices ![0, 85] S1024x1
  slices_S1024x200_o0_86_S1024x1 : S1024x200.Slices ![0, 86] S1024x1
  slices_S1024x200_o0_87_S1024x1 : S1024x200.Slices ![0, 87] S1024x1
  slices_S1024x200_o0_88_S1024x1 : S1024x200.Slices ![0, 88] S1024x1
  slices_S1024x200_o0_89_S1024x1 : S1024x200.Slices ![0, 89] S1024x1
  slices_S1024x200_o0_90_S1024x1 : S1024x200.Slices ![0, 90] S1024x1
  slices_S1024x200_o0_91_S1024x1 : S1024x200.Slices ![0, 91] S1024x1
  slices_S1024x200_o0_92_S1024x1 : S1024x200.Slices ![0, 92] S1024x1
  slices_S1024x200_o0_93_S1024x1 : S1024x200.Slices ![0, 93] S1024x1
  slices_S1024x200_o0_94_S1024x1 : S1024x200.Slices ![0, 94] S1024x1
  slices_S1024x200_o0_95_S1024x1 : S1024x200.Slices ![0, 95] S1024x1
  slices_S1024x200_o0_96_S1024x1 : S1024x200.Slices ![0, 96] S1024x1
  slices_S1024x200_o0_97_S1024x1 : S1024x200.Slices ![0, 97] S1024x1
  slices_S1024x200_o0_98_S1024x1 : S1024x200.Slices ![0, 98] S1024x1
  slices_S1024x200_o0_99_S1024x1 : S1024x200.Slices ![0, 99] S1024x1
  slices_S1024x200_o0_100_S1024x1 : S1024x200.Slices ![0, 100] S1024x1
  slices_S1024x200_o0_101_S1024x1 : S1024x200.Slices ![0, 101] S1024x1
  slices_S1024x200_o0_102_S1024x1 : S1024x200.Slices ![0, 102] S1024x1
  slices_S1024x200_o0_103_S1024x1 : S1024x200.Slices ![0, 103] S1024x1
  slices_S1024x200_o0_104_S1024x1 : S1024x200.Slices ![0, 104] S1024x1
  slices_S1024x200_o0_105_S1024x1 : S1024x200.Slices ![0, 105] S1024x1
  slices_S1024x200_o0_106_S1024x1 : S1024x200.Slices ![0, 106] S1024x1
  slices_S1024x200_o0_107_S1024x1 : S1024x200.Slices ![0, 107] S1024x1
  slices_S1024x200_o0_108_S1024x1 : S1024x200.Slices ![0, 108] S1024x1
  slices_S1024x200_o0_109_S1024x1 : S1024x200.Slices ![0, 109] S1024x1
  slices_S1024x200_o0_110_S1024x1 : S1024x200.Slices ![0, 110] S1024x1
  slices_S1024x200_o0_111_S1024x1 : S1024x200.Slices ![0, 111] S1024x1
  slices_S1024x200_o0_112_S1024x1 : S1024x200.Slices ![0, 112] S1024x1
  slices_S1024x200_o0_113_S1024x1 : S1024x200.Slices ![0, 113] S1024x1
  slices_S1024x200_o0_114_S1024x1 : S1024x200.Slices ![0, 114] S1024x1
  slices_S1024x200_o0_115_S1024x1 : S1024x200.Slices ![0, 115] S1024x1
  slices_S1024x200_o0_116_S1024x1 : S1024x200.Slices ![0, 116] S1024x1
  slices_S1024x200_o0_117_S1024x1 : S1024x200.Slices ![0, 117] S1024x1
  slices_S1024x200_o0_118_S1024x1 : S1024x200.Slices ![0, 118] S1024x1
  slices_S1024x200_o0_119_S1024x1 : S1024x200.Slices ![0, 119] S1024x1
  slices_S1024x200_o0_120_S1024x1 : S1024x200.Slices ![0, 120] S1024x1
  slices_S1024x200_o0_121_S1024x1 : S1024x200.Slices ![0, 121] S1024x1
  slices_S1024x200_o0_122_S1024x1 : S1024x200.Slices ![0, 122] S1024x1
  slices_S1024x200_o0_123_S1024x1 : S1024x200.Slices ![0, 123] S1024x1
  slices_S1024x200_o0_124_S1024x1 : S1024x200.Slices ![0, 124] S1024x1
  slices_S1024x200_o0_125_S1024x1 : S1024x200.Slices ![0, 125] S1024x1
  slices_S1024x200_o0_126_S1024x1 : S1024x200.Slices ![0, 126] S1024x1
  slices_S1024x200_o0_127_S1024x1 : S1024x200.Slices ![0, 127] S1024x1
  slices_S1024x200_o0_128_S1024x1 : S1024x200.Slices ![0, 128] S1024x1
  slices_S1024x200_o0_129_S1024x1 : S1024x200.Slices ![0, 129] S1024x1
  slices_S1024x200_o0_130_S1024x1 : S1024x200.Slices ![0, 130] S1024x1
  slices_S1024x200_o0_131_S1024x1 : S1024x200.Slices ![0, 131] S1024x1
  slices_S1024x200_o0_132_S1024x1 : S1024x200.Slices ![0, 132] S1024x1
  slices_S1024x200_o0_133_S1024x1 : S1024x200.Slices ![0, 133] S1024x1
  slices_S1024x200_o0_134_S1024x1 : S1024x200.Slices ![0, 134] S1024x1
  slices_S1024x200_o0_135_S1024x1 : S1024x200.Slices ![0, 135] S1024x1
  slices_S1024x200_o0_136_S1024x1 : S1024x200.Slices ![0, 136] S1024x1
  slices_S1024x200_o0_137_S1024x1 : S1024x200.Slices ![0, 137] S1024x1
  slices_S1024x200_o0_138_S1024x1 : S1024x200.Slices ![0, 138] S1024x1
  slices_S1024x200_o0_139_S1024x1 : S1024x200.Slices ![0, 139] S1024x1
  slices_S1024x200_o0_140_S1024x1 : S1024x200.Slices ![0, 140] S1024x1
  slices_S1024x200_o0_141_S1024x1 : S1024x200.Slices ![0, 141] S1024x1
  slices_S1024x200_o0_142_S1024x1 : S1024x200.Slices ![0, 142] S1024x1
  slices_S1024x200_o0_143_S1024x1 : S1024x200.Slices ![0, 143] S1024x1
  slices_S1024x200_o0_144_S1024x1 : S1024x200.Slices ![0, 144] S1024x1
  slices_S1024x200_o0_145_S1024x1 : S1024x200.Slices ![0, 145] S1024x1
  slices_S1024x200_o0_146_S1024x1 : S1024x200.Slices ![0, 146] S1024x1
  slices_S1024x200_o0_147_S1024x1 : S1024x200.Slices ![0, 147] S1024x1
  slices_S1024x200_o0_148_S1024x1 : S1024x200.Slices ![0, 148] S1024x1
  slices_S1024x200_o0_149_S1024x1 : S1024x200.Slices ![0, 149] S1024x1
  slices_S1024x200_o0_150_S1024x1 : S1024x200.Slices ![0, 150] S1024x1
  slices_S1024x200_o0_151_S1024x1 : S1024x200.Slices ![0, 151] S1024x1
  slices_S1024x200_o0_152_S1024x1 : S1024x200.Slices ![0, 152] S1024x1
  slices_S1024x200_o0_153_S1024x1 : S1024x200.Slices ![0, 153] S1024x1
  slices_S1024x200_o0_154_S1024x1 : S1024x200.Slices ![0, 154] S1024x1
  slices_S1024x200_o0_155_S1024x1 : S1024x200.Slices ![0, 155] S1024x1
  slices_S1024x200_o0_156_S1024x1 : S1024x200.Slices ![0, 156] S1024x1
  slices_S1024x200_o0_157_S1024x1 : S1024x200.Slices ![0, 157] S1024x1
  slices_S1024x200_o0_158_S1024x1 : S1024x200.Slices ![0, 158] S1024x1
  slices_S1024x200_o0_159_S1024x1 : S1024x200.Slices ![0, 159] S1024x1
  slices_S1024x200_o0_160_S1024x1 : S1024x200.Slices ![0, 160] S1024x1
  slices_S1024x200_o0_161_S1024x1 : S1024x200.Slices ![0, 161] S1024x1
  slices_S1024x200_o0_162_S1024x1 : S1024x200.Slices ![0, 162] S1024x1
  slices_S1024x200_o0_163_S1024x1 : S1024x200.Slices ![0, 163] S1024x1
  slices_S1024x200_o0_164_S1024x1 : S1024x200.Slices ![0, 164] S1024x1
  slices_S1024x200_o0_165_S1024x1 : S1024x200.Slices ![0, 165] S1024x1
  slices_S1024x200_o0_166_S1024x1 : S1024x200.Slices ![0, 166] S1024x1
  slices_S1024x200_o0_167_S1024x1 : S1024x200.Slices ![0, 167] S1024x1
  slices_S1024x200_o0_168_S1024x1 : S1024x200.Slices ![0, 168] S1024x1
  slices_S1024x200_o0_169_S1024x1 : S1024x200.Slices ![0, 169] S1024x1
  slices_S1024x200_o0_170_S1024x1 : S1024x200.Slices ![0, 170] S1024x1
  slices_S1024x200_o0_171_S1024x1 : S1024x200.Slices ![0, 171] S1024x1
  slices_S1024x200_o0_172_S1024x1 : S1024x200.Slices ![0, 172] S1024x1
  slices_S1024x200_o0_173_S1024x1 : S1024x200.Slices ![0, 173] S1024x1
  slices_S1024x200_o0_174_S1024x1 : S1024x200.Slices ![0, 174] S1024x1
  slices_S1024x200_o0_175_S1024x1 : S1024x200.Slices ![0, 175] S1024x1
  slices_S1024x200_o0_176_S1024x1 : S1024x200.Slices ![0, 176] S1024x1
  slices_S1024x200_o0_177_S1024x1 : S1024x200.Slices ![0, 177] S1024x1
  slices_S1024x200_o0_178_S1024x1 : S1024x200.Slices ![0, 178] S1024x1
  slices_S1024x200_o0_179_S1024x1 : S1024x200.Slices ![0, 179] S1024x1
  slices_S1024x200_o0_180_S1024x1 : S1024x200.Slices ![0, 180] S1024x1
  slices_S1024x200_o0_181_S1024x1 : S1024x200.Slices ![0, 181] S1024x1
  slices_S1024x200_o0_182_S1024x1 : S1024x200.Slices ![0, 182] S1024x1
  slices_S1024x200_o0_183_S1024x1 : S1024x200.Slices ![0, 183] S1024x1
  slices_S1024x200_o0_184_S1024x1 : S1024x200.Slices ![0, 184] S1024x1
  slices_S1024x200_o0_185_S1024x1 : S1024x200.Slices ![0, 185] S1024x1
  slices_S1024x200_o0_186_S1024x1 : S1024x200.Slices ![0, 186] S1024x1
  slices_S1024x200_o0_187_S1024x1 : S1024x200.Slices ![0, 187] S1024x1
  slices_S1024x200_o0_188_S1024x1 : S1024x200.Slices ![0, 188] S1024x1
  slices_S1024x200_o0_189_S1024x1 : S1024x200.Slices ![0, 189] S1024x1
  slices_S1024x200_o0_190_S1024x1 : S1024x200.Slices ![0, 190] S1024x1
  slices_S1024x200_o0_191_S1024x1 : S1024x200.Slices ![0, 191] S1024x1
  slices_S1024x200_o0_192_S1024x1 : S1024x200.Slices ![0, 192] S1024x1
  slices_S1024x200_o0_193_S1024x1 : S1024x200.Slices ![0, 193] S1024x1
  slices_S1024x200_o0_194_S1024x1 : S1024x200.Slices ![0, 194] S1024x1
  slices_S1024x200_o0_195_S1024x1 : S1024x200.Slices ![0, 195] S1024x1
  slices_S1024x200_o0_196_S1024x1 : S1024x200.Slices ![0, 196] S1024x1
  slices_S1024x200_o0_197_S1024x1 : S1024x200.Slices ![0, 197] S1024x1
  slices_S1024x200_o0_198_S1024x1 : S1024x200.Slices ![0, 198] S1024x1
  slices_S1024x200_o0_199_S1024x1 : S1024x200.Slices ![0, 199] S1024x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S1024x20 : S1x20.Broadcasts S1024x20
  inb_S1024x20_S1024x20_0_0 : ∀ a, (![0, 0] : Fin 2 → Nat) a + S1024x20.size a ≤ S1024x20.size a
  h_S1024x20 : 0 < S1024x20.numel
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1024x256_S256x20_S1024x20_1_0_0_1_n_n_wf : DotDims.WF S1024x256 S256x20 S1024x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S4096x200.size a
  hwx0_0 : ∀ i : grid0.Coords, EltTy.bits .i32 = 32 ∨ (Rect.block (s := S4096x200) S1024x200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S51200x256.size a
  hwx0_1 : ∀ i : grid0.Coords, EltTy.bits .bf16 = 32 ∨ (Rect.block (s := S51200x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x20.size a ≤ S256x20.size a
  hwx0_3 : ∀ i : grid0.Coords, EltTy.bits .bf16 = 32 ∨ (Rect.block (s := S256x20) S256x20.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x20.size a ≤ S4096x20.size a
  hwx0_7 : ∀ i : grid0.Coords, EltTy.bits .f32 = 32 ∨ (Rect.block (s := S4096x20) S1024x20.size (cc0_transform_7 i) (hinb0_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x20_S1024x20_1_0_0_1_n_n : DotDims S1024x256 S256x20 S1024x20 where
  lhsContracting := [1]
  rhsContracting := [0]
  lhsNonContracting := [0]
  rhsNonContracting := [1]
  lhsBatch := []
  rhsBatch := []
  wf := dot_S1024x256_S256x20_S1024x20_1_0_0_1_n_n_wf

abbrev win0_0 : Pipeline.Window sig grid0 :=
  Pipeline.Window.ofSpec (Memref.whole main_arg0) S1024x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x20.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x200 : Shape := ⟨2, ![4096, 200]⟩
abbrev S256x50257 : Shape := ⟨2, ![256, 50257]⟩
abbrev S256 : Shape := ⟨1, ![256]⟩
abbrev S256x256 : Shape := ⟨2, ![256, 256]⟩
abbrev S20x256 : Shape := ⟨2, ![20, 256]⟩
abbrev S20 : Shape := ⟨1, ![20]⟩
abbrev S4096 : Shape := ⟨1, ![4096]⟩
abbrev S4096x1 : Shape := ⟨2, ![4096, 1]⟩
abbrev S_ : Shape := ⟨0, ![]⟩
abbrev S4096x50257 : Shape := ⟨2, ![4096, 50257]⟩
abbrev S4096x200x1 : Shape := ⟨3, ![4096, 200, 1]⟩
abbrev S4096x200x2 : Shape := ⟨3, ![4096, 200, 2]⟩
abbrev S50257x256 : Shape := ⟨2, ![50257, 256]⟩
abbrev S4096x256 : Shape := ⟨2, ![4096, 256]⟩
abbrev S1x256 : Shape := ⟨2, ![1, 256]⟩
abbrev S256x20 : Shape := ⟨2, ![256, 20]⟩
abbrev S4096x20 : Shape := ⟨2, ![4096, 20]⟩
abbrev S1x20 : Shape := ⟨2, ![1, 20]⟩

abbrev nBuf : Space → Nat
  | .hbm => 53
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S256x50257, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S20x256, .f32⟩
  | .hbm, ⟨6, _⟩ => ⟨S20, .f32⟩
  | .hbm, ⟨7, _⟩ => ⟨S4096, .i32⟩
  | .hbm, ⟨8, _⟩ => ⟨S4096x1, .i32⟩
  | .hbm, ⟨9, _⟩ => ⟨S_, .f32⟩
  | .hbm, ⟨10, _⟩ => ⟨S4096x50257, .f32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x1, .i32⟩
  | .hbm, ⟨18, _⟩ => ⟨S_, .i32⟩
  | .hbm, ⟨19, _⟩ => ⟨S4096x200, .i32⟩
  | .hbm, ⟨20, _⟩ => ⟨S4096x200, .i1⟩
  | .hbm, ⟨21, _⟩ => ⟨S_, .i32⟩
  | .hbm, ⟨22, _⟩ => ⟨S4096x200, .i32⟩
  | .hbm, ⟨23, _⟩ => ⟨S4096x200, .i32⟩
  | .hbm, ⟨24, _⟩ => ⟨S4096x200, .i32⟩
  | .hbm, ⟨25, _⟩ => ⟨S4096x200, .i32⟩
  | .hbm, ⟨26, _⟩ => ⟨S4096x200x1, .i32⟩
  | .hbm, ⟨27, _⟩ => ⟨S4096x200x1, .i32⟩
  | .hbm, ⟨28, _⟩ => ⟨S4096x200x2, .i32⟩
  | .hbm, ⟨29, _⟩ => ⟨S_, .f32⟩
  | .hbm, ⟨30, _⟩ => ⟨S4096x200, .f32⟩
  | .hbm, ⟨31, _⟩ => ⟨S4096x50257, .f32⟩
  | .hbm, ⟨32, _⟩ => ⟨S50257x256, .f32⟩
  | .hbm, ⟨33, _⟩ => ⟨S4096x256, .f32⟩
  | .hbm, ⟨34, _⟩ => ⟨S1x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S256x256, .f32⟩
  | .hbm, ⟨41, _⟩ => ⟨S4096x256, .f32⟩
  | .hbm, ⟨42, _⟩ => ⟨S1x256, .f32⟩
  | .hbm, ⟨43, _⟩ => ⟨S4096x256, .f32⟩
  | .hbm, ⟨44, _⟩ => ⟨S4096x256, .f32⟩
  | .hbm, ⟨45, _⟩ => ⟨S_, .f32⟩
  | .hbm, ⟨46, _⟩ => ⟨S4096x256, .f32⟩
  | .hbm, ⟨47, _⟩ => ⟨S4096x256, .f32⟩
  | .hbm, ⟨48, _⟩ => ⟨S256x20, .f32⟩
  | .hbm, ⟨49, _⟩ => ⟨S4096x20, .f32⟩
  | .hbm, ⟨50, _⟩ => ⟨S1x20, .f32⟩
  | .hbm, ⟨51, _⟩ => ⟨S4096x20, .f32⟩
  | .hbm, ⟨52, _⟩ => ⟨S4096x20, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x50257 : S_.BroadcastsInDim S4096x50257 (![] : Fin 0 → Fin S4096x50257.rank)
  bcast_S_S4096x1 : S_.BroadcastsInDim S4096x1 (![] : Fin 0 → Fin S4096x1.rank)
  bcast_S_S4096x200 : S_.BroadcastsInDim S4096x200 (![] : Fin 0 → Fin S4096x200.rank)
  bcast_S4096x1_S4096x200_0_1 : S4096x1.BroadcastsInDim S4096x200 (![0, 1] : Fin 2 → Fin S4096x200.rank)
  bcast_S4096x200_S4096x200x1_0_1 : S4096x200.BroadcastsInDim S4096x200x1 (![0, 1] : Fin 2 → Fin S4096x200x1.rank)
  concatenates_S4096x200x1_S4096x200x1_S4096x200x2_d2 : Shape.Concatenates [S4096x200x1, S4096x200x1] S4096x200x2 2
  transposes_S256x50257_S50257x256_1_0 : S256x50257.Transposes [1, 0] S50257x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S256x256_S256x256_1_0 : S256x256.Transposes [1, 0] S256x256
  transposes_S20x256_S256x20_1_0 : S20x256.Transposes [1, 0] S256x20
  bcast_S20_S1x20_1 : S20.BroadcastsInDim S1x20 (![1] : Fin 1 → Fin S1x20.rank)
  bcast_S1x20_S4096x20_0_1 : S1x20.BroadcastsInDim S4096x20 (![0, 1] : Fin 2 → Fin S4096x20.rank)
  scatter_S4096x50257_S4096x200x2_S4096x200_n_01_01_2_wf : ScatterDims.WF S4096x50257 S4096x200x2 S4096x200 [] [0, 1] [0, 1] 2
  dot_S4096x50257_S50257x256_S4096x256_1_0_0_1_n_n_wf : DotDims.WF S4096x50257 S50257x256 S4096x256 [1] [0] [0] [1] [] []
  dot_S4096x256_S256x256_S4096x256_1_0_0_1_n_n_wf : DotDims.WF S4096x256 S256x256 S4096x256 [1] [0] [0] [1] [] []
  dot_S4096x256_S256x20_S4096x20_1_0_0_1_n_n_wf : DotDims.WF S4096x256 S256x20 S4096x20 [1] [0] [0] [1] [] []

variable [Facts₀]

def scatter_S4096x50257_S4096x200x2_S4096x200_n_01_01_2 : ScatterDims S4096x50257 S4096x200x2 S4096x200 where
  updateWindowDims := []
  insertedWindowDims := [0, 1]
  scatterDimsToOperandDims := [0, 1]
  indexVectorDim := 2
  wf := scatter_S4096x50257_S4096x200x2_S4096x200_n_01_01_2_wf
def dot_S4096x50257_S50257x256_S4096x256_1_0_0_1_n_n : DotDims S4096x50257 S50257x256 S4096x256 where
  lhsContracting := [1]
  rhsContracting := [0]
  lhsNonContracting := [0]
  rhsNonContracting := [1]
  lhsBatch := []
  rhsBatch := []
  wf := dot_S4096x50257_S50257x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x20_S4096x20_1_0_0_1_n_n : DotDims S4096x256 S256x20 S4096x20 where
  lhsContracting := [1]
  rhsContracting := [0]
  lhsNonContracting := [0]
  rhsNonContracting := [1]
  lhsBatch := []
  rhsBatch := []
  wf := dot_S4096x256_S256x20_S4096x20_1_0_0_1_n_n_wf

class Facts : Prop extends Facts₀ where

variable [Facts]
-- ==== Proof.Chain.lean ====
/-
  The kernel body's arithmetic as a few named terms.

  At grid point (i, j) the body compares every id of a 1024-row block of `ids` with the 1024 vocabulary
  entries 1024·j … 1024·j + 1023 of the current tile, adds the 200 indicator arrays (one per sequence position)
  into a 1024×1024 count, caps the count at one, multiplies the capped array with the tile's rows of the padded
  transposed first weight, and adds the product to the carried 1024×256 accumulator.  On the last tile the
  accumulator goes through the two biased, rectified layers and the final biased layer.

  `lanes` is the tile's vocabulary entries, `counts` the sum of the indicator arrays of positions 0 … 193,
  `lastHit` the comparison of position 194, `stepAcc` the accumulator after the point (it adds the indicators of
  positions 194 … 199, caps, multiplies and accumulates), `epilogue` the three layers.
-/
import proofs.«412731_j77412490543460_1_alg».proof.Proof.Gen.KernelIdeal.Skeleton

noncomputable section

namespace Cert.KernelIdeal.Body

open Cert.KernelIdeal Cert.KernelIdeal.Gen Idealize.ShloMosaic Idealize.ShloMosaic.TcCoe

variable {F : FTy → Type} [FloatOps F]

/-- The vocabulary entries of the tile at grid coordinate `i 1`: entry `k` is `1024 · (i 1) + k`. -/
def lanes (i : grid0.Coords) : IVec S1x1024 32 := k0_pay3 i

/-- The sum over the sequence positions 0 … 193 of the indicator "this row's id at that position is this lane's
    entry": a 1024×1024 array of counts. -/
def counts (i : grid0.Coords) (x0 : Vec F S1024x200 .i32) : FVec F S1024x1024 .f32 :=
  let v6 : IVec S1x1024 32 := k0_pay3 i
  let v50 := k0_pay4 i x0
  let v106 := k0_pay5 v6 x0 v50
  let v110 := k0_pay6 v6 x0
  let v169 := k0_pay7 v6 x0 v106 v110
  let v170 := k0_pay8 x0
  let v225 := k0_pay9 v6 x0 v169 v170
  let v230 := k0_pay10 v6 x0
  let v288 := k0_pay11 v6 x0 v225 v230
  let v290 := k0_pay12 x0
  let v344 := k0_pay13 v6 x0 v288 v290
  let v350 := k0_pay14 v6 x0
  let v407 := k0_pay15 v6 x0 v344 v350
  let v409 := k0_pay16 x0
  let v410 := k0_pay17 v6
  let v470 := k0_pay18 v6 x0 v407 v409 v410
  let v526 := k0_pay19 v6 x0 v470
  let v530 := k0_pay20 v6 x0
  let v589 := k0_pay21 v6 x0 v526 v530
  let v590 := k0_pay22 x0
  let v645 := k0_pay23 v6 x0 v589 v590
  let v650 := k0_pay24 v6 x0
  let v708 := k0_pay25 v6 x0 v645 v650
  let v710 := k0_pay26 x0
  let v764 := k0_pay27 v6 x0 v708 v710
  let v770 := k0_pay28 v6 x0
  let v827 := k0_pay29 v6 x0 v764 v770
  let v829 := k0_pay30 x0
  let v830 := k0_pay31 v6
  let v890 := k0_pay32 v6 x0 v827 v829 v830
  let v946 := k0_pay33 v6 x0 v890
  let v950 := k0_pay34 v6 x0
  let v1009 := k0_pay35 v6 x0 v946 v950
  let v1010 := k0_pay36 x0
  let v1065 := k0_pay37 v6 x0 v1009 v1010
  let v1070 := k0_pay38 v6 x0
  let v1128 := k0_pay39 v6 x0 v1065 v1070
  let v1130 := k0_pay40 x0
  let v1184 := k0_pay41 v6 x0 v1128 v1130
  let v1190 := k0_pay42 v6 x0
  let v1247 := k0_pay43 v6 x0 v1184 v1190
  let v1249 := k0_pay44 x0
  let v1250 := k0_pay45 v6
  let v1310 := k0_pay46 v6 x0 v1247 v1249 v1250
  let v1366 := k0_pay47 v6 x0 v1310
  v1366

/-- The comparison at sequence position 194: one bit per (row, lane). -/
def lastHit (i : grid0.Coords) (x0 : Vec F S1024x200 .i32) : IVec S1024x1024 1 := k0_pay48 (k0_pay3 i) x0

/-- The accumulator after a point: what it held (`acc`) plus the capped count array times the weight tile `x1`. -/
def stepAcc (i : grid0.Coords) (x0 : Vec F S1024x200 .i32) (x1 : Vec F S1024x256 .bf16) (acc : Vec F S1024x256 .f32) :
    FVec F S1024x256 .f32 :=
  k0_pay49 (k0_pay3 i) x0 (counts i x0) (lastHit i x0) x1 acc

/-- The three layers applied to the finished accumulator: bias `x4`, weights `x2`, bias `x5`, weights `x3`,
    bias `x6`. -/
def epilogue (acc : Vec F S1024x256 .f32) (x4 : Vec F S1x256 .f32) (x2 : Vec F S256x256 .bf16) (x5 : Vec F S1x256 .f32)
    (x3 : Vec F S256x20 .bf16) (x6 : Vec F S1x20 .f32) : FVec F S1024x20 .f32 :=
  k0_pay1 acc x4 x2 x5 x3 x6

end Cert.KernelIdeal.Body

end
-- ==== Proof.Pieces.lean ====
/-
  What each control case of the body leaves behind, as terms of the body's arithmetic (Chain.lean).
  Case A (the first vocabulary tile of a row block) resets the accumulator to zero and then adds the tile's product;
  case B (a middle tile) adds the tile's product to what the point before left; case C (the last tile) does the same
  and then stores the three layers of the finished accumulator into the output block.
-/
import proofs.«412731_j77412490543460_1_alg».proof.Proof.Gen.KernelIdeal.Frame
import proofs.«412731_j77412490543460_1_alg».proof.Proof.Chain
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

/-- The offset of a whole block: zero along both axes. -/
private theorem zeros2 : (![0, 0] : Fin 2 → Nat) = fun _ => 0 := funext fun a => by fin_cases a <;> rfl

/-- Case A: the accumulator after the point is the step from zero. -/
theorem sout_A (c : Dev nD) (i : grid0.Coords) (arg2 : Memref sig .tc .vmem S1024x200 .i32) (harg2 : arg2.IsWhole) (arg3 : Memref sig .tc .vmem S1024x256 .bf16) (harg3 : arg3.IsWhole) (arg4 : Memref sig .tc .vmem S256x256 .bf16) (harg4 : arg4.IsWhole) (arg5 : Memref sig .tc .vmem S256x20 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x20 .f32) (harg8 : arg8.IsWhole) (arg9 : Memref sig .tc .vmem S1024x20 .f32) (harg9 : arg9.IsWhole) (arg10 : Memref sig .tc .vmem S1024x256 .f32) (harg10 : arg10.IsWhole) (hc0 : cond0_0 i) (hc1 : ¬cond0_1 i) (x0 : Vec F S1024x200 .i32) (x1 : Vec F S1024x256 .bf16) (x2 : Vec F S256x256 .bf16) (x3 : Vec F S256x20 .bf16) (x4 : Vec F S1x256 .f32) (x5 : Vec F S1x256 .f32) (x6 : Vec F S1x20 .f32) :
    sout0_A_0 c i arg2 harg2 arg3 harg3 arg4 harg4 arg5 harg5 arg6 harg6 arg7 harg7 arg8 harg8 arg9 harg9 arg10 harg10 hc0 hc1 x0 x1 x2 x3 x4 x5 x6 = Body.stepAcc i x0 x1 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x256) zeros2, View.readCov_unit_zero (S := S1024x256) _ zeros2]
  simp only [View.readAt_eq_ld, harg2.read_unread, harg3.read_unread,
    View.ld_unit_zero (S := S1024x200) zeros2, View.ld_unit_zero (S := S1024x256) zeros2]
  unfold Body.stepAcc Body.counts Body.lastHit
  rfl

/-- Case B: the accumulator after the point is the step from what the point before left. -/
theorem sout_B (c : Dev nD) (i : grid0.Coords) (arg2 : Memref sig .tc .vmem S1024x200 .i32) (harg2 : arg2.IsWhole) (arg3 : Memref sig .tc .vmem S1024x256 .bf16) (harg3 : arg3.IsWhole) (arg4 : Memref sig .tc .vmem S256x256 .bf16) (harg4 : arg4.IsWhole) (arg5 : Memref sig .tc .vmem S256x20 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x20 .f32) (harg8 : arg8.IsWhole) (arg9 : Memref sig .tc .vmem S1024x20 .f32) (harg9 : arg9.IsWhole) (arg10 : Memref sig .tc .vmem S1024x256 .f32) (harg10 : arg10.IsWhole) (hc0 : ¬cond0_0 i) (hc1 : ¬cond0_1 i) (x0 : Vec F S1024x200 .i32) (x1 : Vec F S1024x256 .bf16) (x2 : Vec F S256x256 .bf16) (x3 : Vec F S256x20 .bf16) (x4 : Vec F S1x256 .f32) (x5 : Vec F S1x256 .f32) (x6 : Vec F S1x20 .f32) (xs0 : Vec F S1024x256 .f32) :
    sout0_B_0 c i arg2 harg2 arg3 harg3 arg4 harg4 arg5 harg5 arg6 harg6 arg7 harg7 arg8 harg8 arg9 harg9 arg10 harg10 hc0 hc1 x0 x1 x2 x3 x4 x5 x6 xs0 = Body.stepAcc i x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S1024x256) zeros2]
  simp only [View.readAt_eq_ld, harg2.read_unread, harg3.read_unread, harg10.read_unread,
    View.ld_unit_zero (S := S1024x200) zeros2, View.ld_unit_zero (S := S1024x256) zeros2]
  unfold Body.stepAcc Body.counts Body.lastHit
  rfl

/-- Case C: likewise for the accumulator, -/
theorem sout_C (c : Dev nD) (i : grid0.Coords) (arg2 : Memref sig .tc .vmem S1024x200 .i32) (harg2 : arg2.IsWhole) (arg3 : Memref sig .tc .vmem S1024x256 .bf16) (harg3 : arg3.IsWhole) (arg4 : Memref sig .tc .vmem S256x256 .bf16) (harg4 : arg4.IsWhole) (arg5 : Memref sig .tc .vmem S256x20 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x20 .f32) (harg8 : arg8.IsWhole) (arg9 : Memref sig .tc .vmem S1024x20 .f32) (harg9 : arg9.IsWhole) (arg10 : Memref sig .tc .vmem S1024x256 .f32) (harg10 : arg10.IsWhole) (hc0 : ¬cond0_0 i) (hc1 : cond0_1 i) (x0 : Vec F S1024x200 .i32) (x1 : Vec F S1024x256 .bf16) (x2 : Vec F S256x256 .bf16) (x3 : Vec F S256x20 .bf16) (x4 : Vec F S1x256 .f32) (x5 : Vec F S1x256 .f32) (x6 : Vec F S1x20 .f32) (xs0 : Vec F S1024x256 .f32) :
    sout0_C_0 c i arg2 harg2 arg3 harg3 arg4 harg4 arg5 harg5 arg6 harg6 arg7 harg7 arg8 harg8 arg9 harg9 arg10 harg10 hc0 hc1 x0 x1 x2 x3 x4 x5 x6 xs0 = Body.stepAcc i x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x256) zeros2]
  simp only [View.readAt_eq_ld, harg2.read_unread, harg3.read_unread, harg10.read_unread,
    View.ld_unit_zero (S := S1024x200) zeros2, View.ld_unit_zero (S := S1024x256) zeros2]
  unfold Body.stepAcc Body.counts Body.lastHit
  rfl

/-- and the output block is the three layers of the accumulator just stored. -/
theorem out_C (c : Dev nD) (i : grid0.Coords) (arg2 : Memref sig .tc .vmem S1024x200 .i32) (harg2 : arg2.IsWhole) (arg3 : Memref sig .tc .vmem S1024x256 .bf16) (harg3 : arg3.IsWhole) (arg4 : Memref sig .tc .vmem S256x256 .bf16) (harg4 : arg4.IsWhole) (arg5 : Memref sig .tc .vmem S256x20 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x20 .f32) (harg8 : arg8.IsWhole) (arg9 : Memref sig .tc .vmem S1024x20 .f32) (harg9 : arg9.IsWhole) (arg10 : Memref sig .tc .vmem S1024x256 .f32) (harg10 : arg10.IsWhole) (hc0 : ¬cond0_0 i) (hc1 : cond0_1 i) (x0 : Vec F S1024x200 .i32) (x1 : Vec F S1024x256 .bf16) (x2 : Vec F S256x256 .bf16) (x3 : Vec F S256x20 .bf16) (x4 : Vec F S1x256 .f32) (x5 : Vec F S1x256 .f32) (x6 : Vec F S1x20 .f32) (xs0 : Vec F S1024x256 .f32) :
    out0_C_7 c i arg2 harg2 arg3 harg3 arg4 harg4 arg5 harg5 arg6 harg6 arg7 harg7 arg8 harg8 arg9 harg9 arg10 harg10 hc0 hc1 x0 x1 x2 x3 x4 x5 x6 xs0 = Body.epilogue (Body.stepAcc i x0 x1 xs0) x4 x2 x5 x3 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x20) zeros2]
  simp only [View.readCov_unit_zero (S := S1024x256) _ zeros2, View.readAt_eq_ld, harg2.read_unread, harg3.read_unread,
    harg4.read_unread, harg5.read_unread, harg6.read_unread, harg7.read_unread, harg8.read_unread, harg10.read_unread,
    View.ld_unit_zero (S := S1024x200) zeros2, View.ld_unit_zero (S := S1024x256) zeros2,
    View.ld_unit_zero (S := S256x256) zeros2, View.ld_unit_zero (S := S256x20) zeros2,
    View.ld_unit_zero (S := S1x256) zeros2, View.ld_unit_zero (S := S1x20) zeros2]
  unfold Body.epilogue Body.stepAcc Body.counts Body.lastHit
  rfl

end Cert.KernelIdeal.Pieces

end
-- ==== Proof.Spec.lean ====
/-
  The specification: the result as one function of the argument arrays, index by index, and the two facts about
  sums that join the kernel's arrangement of it to the reference's.

  A row r of `ids` is a bag of 200 token ids.  `hot ids r v` is 1 when the bag holds the vocabulary entry v and 0
  otherwise (a multi-hot encoding: repeats count once).  The network is
      h1 = relu (hot · W1ᵀ + b1),   h2 = relu (h1 · W2ᵀ + b2),   out = h2 · W3ᵀ + b3
  over the extended reals.  The kernel walks the vocabulary in 50 tiles of 1024 entries, the last tile running past
  the 50257 real entries into padding whose weights are zero (`sum_tiles`), and it finds `hot` as a count of
  matching positions capped at one (`min_count`).
-/
import Idealize.ShloMosaic.PureOps.Ideal
import Idealize.ShloMosaic.Lib.ValueIdx

noncomputable section

open scoped BigOperators

namespace Cert.Spec

open Idealize.ShloMosaic Idealize.ShloMosaic.ValueIdx

/-- The indicator of a proposition as an extended real: 1 when it holds, 0 when it does not. -/
def ind (p : Prop) : EReal := by classical exact if p then 1 else 0

theorem ind_of {p : Prop} (h : p) : ind p = 1 := by
  unfold ind
  classical
  simp [h]

theorem ind_of_not {p : Prop} (h : ¬p) : ind p = 0 := by
  unfold ind
  classical
  simp [h]

/-- Indicators of equivalent propositions are equal. -/
theorem ind_congr {p q : Prop} (h : p ↔ q) : ind p = ind q := by
  have hpq : p = q := propext h
  subst hpq
  rfl

/-- An indicator is never negative. -/
theorem ind_nonneg (p : Prop) : 0 ≤ ind p := by
  by_cases hp : p
  · rw [ind_of hp]
    exact zero_le_one
  · rw [ind_of_not hp]

/-- A count of indicators capped at one is the indicator that some term holds. -/
theorem min_count (n : Nat) (p : Fin n → Prop) : min (∑ s : Fin n, ind (p s)) 1 = ind (∃ s, p s) := by
  by_cases hex : ∃ s, p s
  · -- some term is 1 and every term is at least 0, so the count is at least 1
    obtain ⟨s, hs⟩ := hex
    rw [ind_of ⟨s, hs⟩]
    apply min_eq_right
    calc (1 : EReal) = ind (p s) := (ind_of hs).symm
      _ ≤ ∑ s : Fin n, ind (p s) :=
          Finset.single_le_sum (f := fun s : Fin n => ind (p s)) (fun i _ => ind_nonneg (p i)) (Finset.mem_univ s)
  · -- no term holds, so every term is 0
    rw [ind_of_not hex]
    have hzero : ∑ s : Fin n, ind (p s) = 0 := by
      apply Finset.sum_eq_zero
      intro s _
      exact ind_of_not (fun hs => hex ⟨s, hs⟩)
    rw [hzero]
    exact min_eq_left zero_le_one

/-- A sum taken tile by tile, n tiles of m entries, is the sum over the first n * m naturals. -/
theorem sum_tiles_range (f : Nat → EReal) (m : Nat) (n : Nat) :
    ∑ j ∈ Finset.range n, ∑ k : Fin m, f (m * j + k.val) = ∑ v ∈ Finset.range (n * m), f v := by
  induction n with
  | zero => simp
  | succ n ih =>
    rw [Finset.sum_range_succ, ih, Nat.succ_mul, Finset.sum_range_add,
      Fin.sum_univ_eq_sum_range (fun k => f (m * n + k)) m, Nat.mul_comm m n]

/-- The vocabulary summed tile by tile, 50 tiles of 1024 entries, is the sum over the 50257 real entries when the
    summand vanishes on the padding 50257 … 51199. -/
theorem sum_tiles (f : Nat → EReal) (hpad : ∀ v, 50257 ≤ v → f v = 0) :
    ∑ j ∈ Finset.range 50, ∑ k : Fin 1024, f (1024 * j + k.val) = ∑ v : Fin 50257, f v.val := by
  have hsplit : 50 * 1024 = 50257 + 943 := by norm_num
  -- the padding 50257 … 51199 contributes nothing
  have htail : ∑ x ∈ Finset.range 943, f (50257 + x) = 0 :=
    Finset.sum_eq_zero (fun x _ => hpad (50257 + x) (Nat.le_add_right 50257 x))
  rw [sum_tiles_range f 1024 50, hsplit, Finset.sum_range_add, htail, add_zero]
  exact (Fin.sum_univ_eq_sum_range f 50257).symm

/-- Row `r`'s bag of ids holds the vocabulary entry `v`. -/
def hot (ids : IVec ⟨2, ![4096, 200]⟩ 32) (r : Fin 4096) (v : Nat) : EReal :=
  ind (∃ s : Fin 200, ids (ix2 r s) = BitVec.ofNat 32 v)

/-- The first layer before its bias: the multi-hot row times the transposed first weight. -/
def hidden1 (ids : IVec ⟨2, ![4096, 200]⟩ 32) (W1 : FVec Ideal ⟨2, ![256, 50257]⟩ .f32) (r : Fin 4096) (h : Fin 256) : EReal :=
  ∑ v : Fin 50257, hot ids r v.val * W1 (ix2 h v)

/-- The network's output at row `r`, class `c`. -/
def outAt (ids : IVec ⟨2, ![4096, 200]⟩ 32) (W1 : FVec Ideal ⟨2, ![256, 50257]⟩ .f32) (b1 : FVec Ideal ⟨1, ![256]⟩ .f32)
    (W2 : FVec Ideal ⟨2, ![256, 256]⟩ .f32) (b2 : FVec Ideal ⟨1, ![256]⟩ .f32) (W3 : FVec Ideal ⟨2, ![20, 256]⟩ .f32)
    (b3 : FVec Ideal ⟨1, ![20]⟩ .f32) (r : Fin 4096) (c : Fin 20) : EReal :=
  (∑ k : Fin 256, max ((∑ k' : Fin 256, max (hidden1 ids W1 r k' + b1 (ix1 k')) 0 * W2 (ix2 k k')) + b2 (ix1 k)) 0 * W3 (ix2 c k))
    + b3 (ix1 c)

/-- The whole [4096, 20] result as one function of the seven argument arrays. -/
def G (ids : IVec ⟨2, ![4096, 200]⟩ 32) (W1 : FVec Ideal ⟨2, ![256, 50257]⟩ .f32) (b1 : FVec Ideal ⟨1, ![256]⟩ .f32)
    (W2 : FVec Ideal ⟨2, ![256, 256]⟩ .f32) (b2 : FVec Ideal ⟨1, ![256]⟩ .f32) (W3 : FVec Ideal ⟨2, ![20, 256]⟩ .f32)
    (b3 : FVec Ideal ⟨1, ![20]⟩ .f32) : FVec Ideal ⟨2, ![4096, 20]⟩ .f32 :=
  fun i => outAt ids W1 b1 W2 b2 W3 b3 (i 0) (i 1)

end Cert.Spec

end
-- ==== Proof.HotValue.lean ====
/-
  The accumulator step read at an index, at the ideal values: entry (r, h) of the new accumulator is the old entry
  plus the sum over the tile's 1024 vocabulary entries of "row r's bag holds the entry" times the weight.  The count
  of matching positions is a sum of 200 indicators, each 0 or 1, and capping it at one gives the indicator that some
  position matches.
-/
import proofs.«412731_j77412490543460_1_alg».proof.Proof.Chain
import proofs.«412731_j77412490543460_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HotValue

open Cert.KernelIdeal Cert.KernelIdeal.Gen Idealize.ShloMosaic Idealize.ShloMosaic.TcCoe Idealize.ShloMosaic.ValueIdx

/-! ## Layout and word facts -/

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An integer comparison read at an index compares the two entries. -/
theorem cmpi_apply {s : Shape} {w : ℕ} (p : CmpIPredicate) (x y : IVec s w) (i : s.Idx) :
    cmpi p x y i = IntOp.cmpi p (x i) (y i) := rfl

/-- A bit widened to 32 bits and read signed is the bit read unsigned. -/
theorem toInt_setWidth_bit : ∀ b : BitVec 1, (b.setWidth 32).toInt = (b.toNat : ℤ) := by decide

/-- The equality bit of two words, widened to a word and converted, is the indicator of their equality. -/
theorem hit_scalar (a b : BitVec 32) :
    (FloatOps.sitofp (F := Ideal) .f32 ((IntOp.cmpi .eq a b).setWidth 32)) = Cert.Spec.ind (a = b) := by
  show (((((BitVec.ofBool (a == b)).setWidth 32).toInt : ℤ) : ℝ) : EReal) = _
  rw [toInt_setWidth_bit]
  by_cases h : a = b
  · rw [Cert.Spec.ind_of h]
    subst h
    simp
  · rw [Cert.Spec.ind_of_not h]
    have hb : (a == b) = false := by simpa using h
    rw [hb]
    simp

/-- The f32 pattern of one is the extended real one. -/
theorem one_f32 : Ideal.ofBits .f32 0x3F800000#32 = 1 := by
  have e : (1 : EReal) = ((1 : ℝ) : EReal) := by norm_cast
  rw [e]
  simp [Ideal.ofBits, Ideal.ieee, -EReal.coe_mul]
  norm_num

/-! ## The product with the weight tile -/

theorem lhs_dot_0 (j : S1024x256.Idx) (q : dot_S1024x1024_S1024x256_S1024x256_1_0_0_1_n_n.contr.Idx) :
    (dot_S1024x1024_S1024x256_S1024x256_1_0_0_1_n_n.lhsIdx j q 0).val = (j 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_dot_1 (j : S1024x256.Idx) (q : dot_S1024x1024_S1024x256_S1024x256_1_0_0_1_n_n.contr.Idx) :
    (dot_S1024x1024_S1024x256_S1024x256_1_0_0_1_n_n.lhsIdx j q 1).val = (q ⟨0, by decide⟩).val :=
  dot_S1024x1024_S1024x256_S1024x256_1_0_0_1_n_n.lhsIdx_val_of_single rfl j q
theorem rhs_dot_0 (j : S1024x256.Idx) (q : dot_S1024x1024_S1024x256_S1024x256_1_0_0_1_n_n.contr.Idx) :
    (dot_S1024x1024_S1024x256_S1024x256_1_0_0_1_n_n.rhsIdx j q 0).val = (q ⟨0, by decide⟩).val :=
  dot_S1024x1024_S1024x256_S1024x256_1_0_0_1_n_n.rhsIdx_val_of_single rfl j q
theorem rhs_dot_1 (j : S1024x256.Idx) (q : dot_S1024x1024_S1024x256_S1024x256_1_0_0_1_n_n.contr.Idx) :
    (dot_S1024x1024_S1024x256_S1024x256_1_0_0_1_n_n.rhsIdx j q 1).val = (j 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product into a zero accumulator read at `(r, h)`: the sum over the 1024 lanes of the left array's row `r` times
    the right array's column `h`. -/
theorem matmul_tile_apply (A : FVec Ideal S1024x1024 .bf16) (B : FVec Ideal S1024x256 .bf16) (r : Fin 1024) (h : Fin 256) :
    matmul dot_S1024x1024_S1024x256_S1024x256_1_0_0_1_n_n none A B (constant (F := Ideal) S1024x256 .f32 0x00000000#32) (ix2 r h)
      = ∑ k : Fin 1024, A (ix2 r k) * B (ix2 k h) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r h) ((contrEquiv1 dot_S1024x1024_S1024x256_S1024x256_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S1024x1024_S1024x256_S1024x256_1_0_0_1_n_n.rhsIdx (ix2 r h) ((contrEquiv1 dot_S1024x1024_S1024x256_S1024x256_1_0_0_1_n_n 1024 rfl rfl).symm k) = ix2 k h := funext fun a => Fin.ext (by
    match a with
    | ⟨0, _⟩ => exact (rhs_dot_0 _ _).trans hk
    | ⟨1, _⟩ => exact rhs_dot_1 _ _)
  rw [el, er]

/-! ## The count of matching positions as a recursion over the positions -/

section Recursion

variable {F : FTy → Type} [FloatOps F]

/-- Column `s` of the ids is a block of the id array. -/
theorem slices_col (s : Fin 200) : S1024x200.Slices ![0, s.val] S1024x1 :=
  ⟨rfl, fun a => by
    have hs := s.isLt
    match a with
    | ⟨0, _⟩ => show 0 + 1024 ≤ 1024; omega
    | ⟨1, _⟩ => show s.val + 1 ≤ 200; omega⟩

/-- The indicator array of sequence position `s`: at (row, lane), one when the row's id at `s` is the lane's entry. -/
def term (v6 : IVec S1x1024 32) (x0 : Vec F S1024x200 .i32) (s : Fin 200) : FVec F S1024x1024 .f32 :=
  sitofp .f32 (extui 32 (cmpi .eq (broadcastTo S1024x1024 (extractStridedSlice S1024x1 ![0, s.val] x0 (slices_col s)) broadcasts_S1024x1_S1024x1024)
    (broadcastTo S1024x1024 v6 broadcasts_S1x1024_S1024x1024)) natLt_1_32)

/-- The sum of the indicator arrays of the positions below `n`, added one position at a time from the zero array. -/
def psum (v6 : IVec S1x1024 32) (x0 : Vec F S1024x200 .i32) : Nat → FVec F S1024x1024 .f32
  | 0 => broadcast S1024x1024 (Scalar.ofBits .f32 0x00000000#32)
  | n + 1 => if h : n < 200 then addf (psum v6 x0 n) (term v6 x0 ⟨n, h⟩) else psum v6 x0 n

set_option maxRecDepth 65536 in
/-- The accumulator step is: the sum over all 200 positions, capped at one, multiplied with the weight tile and added
    to the carried accumulator (the body adds the same 200 arrays in the same order). -/
theorem stepAcc_eq (i : grid0.Coords) (x0 : Vec F S1024x200 .i32) (x1 : Vec F S1024x256 .bf16) (acc : Vec F S1024x256 .f32) :
    Body.stepAcc (F := F) i x0 x1 acc
      = shapeCast S1024x256 (addf acc (matmul dot_S1024x1024_S1024x256_S1024x256_1_0_0_1_n_n none
          (truncf .bf16 (minimumf (psum (k0_pay3 i) x0 200) (broadcast S1024x1024 (Scalar.ofBits .f32 0x3F800000#32))) bitsLt_bf16_f32)
          (shapeCast S1024x256 x1 shapeCasts_S1024x256_S1024x256) (constant S1024x256 .f32 0x00000000#32)))
        shapeCasts_S1024x256_S1024x256 := rfl

end Recursion

/-! ## One position at an entry, and the count at an entry -/

/-- Column `s` of the ids broadcast across the lanes, read at `(r, k)`: row `r`'s id at position `s`. -/
theorem col_apply (x0 : IVec S1024x200 32) (s : Fin 200) (hs : S1024x200.Slices ![0, s.val] S1024x1)
    (hb : S1024x1.Broadcasts S1024x1024) (r k : Fin 1024) :
    broadcastTo S1024x1024 (extractStridedSlice S1024x1 ![0, s.val] x0 hs) hb (ix2 r k) = x0 (ix2 r s) := by
  rw [broadcastTo_a1_ab_apply]
  exact slice2_axis1_apply s.val x0 hs r (0 : Fin 1) s rfl

/-- The lane entries broadcast down the rows, read at `(r, k)`: lane `k`'s entry. -/
theorem lane_apply (v6 : IVec S1x1024 32) (hb : S1x1024.Broadcasts S1024x1024) (r k : Fin 1024) :
    broadcastTo S1024x1024 v6 hb (ix2 r k) = v6 (ix2 (0 : Fin 1) k) :=
  broadcastTo_1b_ab_apply v6 hb r k

/-- One position's indicator array at an entry. -/
theorem term_apply (v6 : IVec S1x1024 32) (x0 : IVec S1024x200 32) (s : Fin 200) (r k : Fin 1024) :
    term (F := Ideal) v6 x0 s (ix2 r k) = Cert.Spec.ind (x0 (ix2 r s) = v6 (ix2 (0 : Fin 1) k)) := by
  unfold term
  rw [sitofp_apply, extui_apply, cmpi_apply, col_apply, lane_apply, hit_scalar]

/-- The partial sums at an entry: the count of matching positions below `n`. -/
theorem psum_apply (v6 : IVec S1x1024 32) (x0 : IVec S1024x200 32) (r k : Fin 1024) :
    ∀ n : ℕ, n ≤ 200 → psum (F := Ideal) v6 x0 n (ix2 r k)
      = ∑ s ∈ Finset.range n, (if h : s < 200 then Cert.Spec.ind (x0 (ix2 r ⟨s, h⟩) = v6 (ix2 (0 : Fin 1) k)) else 0)
  | 0, _ => by
    show Ideal.ofBits .f32 0x00000000#32 = _
    rw [Ideal.ofBits_zero_f32, Finset.sum_range_zero]
  | n + 1, hn => by
    have h : n < 200 := by omega
    show (if h : n < 200 then addf (psum v6 x0 n) (term v6 x0 ⟨n, h⟩) else psum v6 x0 n) (ix2 r k) = _
    rw [dif_pos h, addf_apply, psum_apply v6 x0 r k n (by omega), term_apply, Finset.sum_range_succ, dif_pos h]

/-- All 200 positions: the count of matching positions. -/
theorem psum_all (v6 : IVec S1x1024 32) (x0 : IVec S1024x200 32) (r k : Fin 1024) :
    psum (F := Ideal) v6 x0 200 (ix2 r k) = ∑ s : Fin 200, Cert.Spec.ind (x0 (ix2 r s) = v6 (ix2 (0 : Fin 1) k)) := by
  rw [psum_apply v6 x0 r k 200 (le_refl _), ← Fin.sum_univ_eq_sum_range (fun s => if h : s < 200 then Cert.Spec.ind (x0 (ix2 r ⟨s, h⟩) = v6 (ix2 (0 : Fin 1) k)) else 0) 200]
  refine Finset.sum_congr rfl fun s _ => ?_
  rw [dif_pos s.isLt]

/-! ## The tile's vocabulary entries -/

/-- Lane `k` of the tile at grid coordinate `i 1` holds the vocabulary entry `1024 · (i 1) + k`: the product and the sum
    of words are the words of the product and the sum. -/
theorem lanes_apply (i : grid0.Coords) (k : Fin 1024) :
    k0_pay3 i (ix2 (0 : Fin 1) k) = BitVec.ofNat 32 (1024 * (i 1).val + k.val) := by
  show BitVec.ofNat 32 (i 1).val * BitVec.ofNat 32 1024 + BitVec.ofNat 32 (0 * 1024 + k.val) = _
  rw [Nat.zero_mul, Nat.zero_add, BitVec.ofNat_add, BitVec.ofNat_mul, BitVec.mul_comm]

/-! ## The step at an entry -/

/-- The accumulator step at entry (r, h). -/
theorem stepAcc_apply (i : grid0.Coords) (x0 : IVec S1024x200 32) (x1 : FVec Ideal S1024x256 .bf16)
    (acc : FVec Ideal S1024x256 .f32) (r : Fin 1024) (h : Fin 256) :
    Body.stepAcc (F := Ideal) i x0 x1 acc (ix2 r h)
      = acc (ix2 r h) + ∑ k : Fin 1024,
          Cert.Spec.ind (∃ s : Fin 200, x0 (ix2 r s) = BitVec.ofNat 32 (1024 * (i 1).val + k.val)) * x1 (ix2 k h) := by
  rw [stepAcc_eq, shapeCast_self, addf_apply, shapeCast_self, matmul_tile_apply]
  refine congrArg (acc (ix2 r h) + ·) (Finset.sum_congr rfl fun k _ => ?_)
  rw [truncf_apply, minimumf_apply, broadcast_apply, psum_all, lanes_apply]
  show min _ (Ideal.ofBits .f32 0x3F800000#32) * _ = _
  rw [one_f32, Cert.Spec.min_count]

end Cert.KernelIdeal.HotValue

end
-- ==== Proof.EpiValue.lean ====
/-
  The three layers read at an index, at the ideal values: two biased, rectified matrix products and a biased one,
  each product a plain sum over its 256 inner entries.
-/
import proofs.«412731_j77412490543460_1_alg».proof.Proof.Chain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EpiValue

open Cert.KernelIdeal Cert.KernelIdeal.Gen Idealize.ShloMosaic Idealize.ShloMosaic.TcCoe Idealize.ShloMosaic.ValueIdx

/-- The left operand's row coordinate is the output's row. -/
theorem lhs_layer2_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's column coordinate is the inner index. -/
theorem lhs_layer2_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row coordinate is the inner index. -/
theorem rhs_layer2_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- The right operand's column coordinate is the output's column. -/
theorem rhs_layer2_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The second layer's product at (r, c): the sum over the 256 inner entries of the left row times the right column. -/
theorem layer2_apply (a : FVec Ideal S1024x256 .bf16) (b : FVec Ideal S256x256 .bf16) (r : Fin 1024) (c : Fin 256) :
    matmul dot_S1024x256_S256x256_S1024x256_1_0_0_1_n_n none a b (constant (F := Ideal) S1024x256 .f32 0x00000000#32) (ix2 r c)
      = ∑ k : Fin 256, a (ix2 r k) * b (ix2 k c) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r c) ((contrEquiv1 dot_S1024x256_S256x256_S1024x256_1_0_0_1_n_n 256 rfl rfl).symm k) = ix2 r k := funext fun x => Fin.ext (by
    match x with
    | ⟨0, _⟩ => exact lhs_layer2_0 _ _
    | ⟨1, _⟩ => exact (lhs_layer2_1 _ _).trans hk)
  have er : dot_S1024x256_S256x256_S1024x256_1_0_0_1_n_n.rhsIdx (ix2 r c) ((contrEquiv1 dot_S1024x256_S256x256_S1024x256_1_0_0_1_n_n 256 rfl rfl).symm k) = ix2 k c := funext fun x => Fin.ext (by
    match x with
    | ⟨0, _⟩ => exact (rhs_layer2_0 _ _).trans hk
    | ⟨1, _⟩ => exact rhs_layer2_1 _ _)
  rw [el, er]

/-- The left operand's row coordinate is the output's row. -/
theorem lhs_layer3_0 (i : S1024x20.Idx) (q : dot_S1024x256_S256x20_S1024x20_1_0_0_1_n_n.contr.Idx) :
    (dot_S1024x256_S256x20_S1024x20_1_0_0_1_n_n.lhsIdx i q 0).val = (i 0).val := by
  unfold DotDims.lhsIdx
  rw [dif_neg (show ¬(0 : Fin S1024x256.rank) ∈ dot_S1024x256_S256x20_S1024x20_1_0_0_1_n_n.lhsBatch by decide), dif_pos (show (0 : Fin S1024x256.rank) ∈ dot_S1024x256_S256x20_S1024x20_1_0_0_1_n_n.lhsNonContracting by decide)]
  rfl
/-- The left operand's column coordinate is the inner index. -/
theorem lhs_layer3_1 (i : S1024x20.Idx) (q : dot_S1024x256_S256x20_S1024x20_1_0_0_1_n_n.contr.Idx) :
    (dot_S1024x256_S256x20_S1024x20_1_0_0_1_n_n.lhsIdx i q 1).val = (q ⟨0, by decide⟩).val :=
  dot_S1024x256_S256x20_S1024x20_1_0_0_1_n_n.lhsIdx_val_of_single rfl i q
/-- The right operand's row coordinate is the inner index. -/
theorem rhs_layer3_0 (i : S1024x20.Idx) (q : dot_S1024x256_S256x20_S1024x20_1_0_0_1_n_n.contr.Idx) :
    (dot_S1024x256_S256x20_S1024x20_1_0_0_1_n_n.rhsIdx i q 0).val = (q ⟨0, by decide⟩).val :=
  dot_S1024x256_S256x20_S1024x20_1_0_0_1_n_n.rhsIdx_val_of_single rfl i q
/-- The right operand's column coordinate is the output's column. -/
theorem rhs_layer3_1 (i : S1024x20.Idx) (q : dot_S1024x256_S256x20_S1024x20_1_0_0_1_n_n.contr.Idx) :
    (dot_S1024x256_S256x20_S1024x20_1_0_0_1_n_n.rhsIdx i q 1).val = (i 1).val := by
  unfold DotDims.rhsIdx
  rw [dif_neg (show ¬(1 : Fin S256x20.rank) ∈ dot_S1024x256_S256x20_S1024x20_1_0_0_1_n_n.rhsBatch by decide), dif_pos (show (1 : Fin S256x20.rank) ∈ dot_S1024x256_S256x20_S1024x20_1_0_0_1_n_n.rhsNonContracting by decide)]
  rfl

/-- The third layer's product at (r, c): the sum over the 256 inner entries of the left row times the right column. -/
theorem layer3_apply (a : FVec Ideal S1024x256 .bf16) (b : FVec Ideal S256x20 .bf16) (r : Fin 1024) (c : Fin 20) :
    matmul dot_S1024x256_S256x20_S1024x20_1_0_0_1_n_n none a b (constant (F := Ideal) S1024x20 .f32 0x00000000#32) (ix2 r c)
      = ∑ k : Fin 256, a (ix2 r k) * b (ix2 k c) := by
  simp only [matmul]
  rw [Ideal.matmul_constant_zero_apply, ← Equiv.sum_comp (contrEquiv1 dot_S1024x256_S256x20_S1024x20_1_0_0_1_n_n 256 rfl rfl).symm]
  refine Finset.sum_congr rfl fun k _ => ?_
  have hk := contrEquiv1_symm_val dot_S1024x256_S256x20_S1024x20_1_0_0_1_n_n 256 rfl rfl k
  have el : dot_S1024x256_S256x20_S1024x20_1_0_0_1_n_n.lhsIdx (ix2 r c) ((contrEquiv1 dot_S1024x256_S256x20_S1024x20_1_0_0_1_n_n 256 rfl rfl).symm k) = ix2 r k := funext fun x => Fin.ext (by
    match x with
    | ⟨0, _⟩ => exact lhs_layer3_0 _ _
    | ⟨1, _⟩ => exact (lhs_layer3_1 _ _).trans hk)
  have er : dot_S1024x256_S256x20_S1024x20_1_0_0_1_n_n.rhsIdx (ix2 r c) ((contrEquiv1 dot_S1024x256_S256x20_S1024x20_1_0_0_1_n_n 256 rfl rfl).symm k) = ix2 k c := funext fun x => Fin.ext (by
    match x with
    | ⟨0, _⟩ => exact (rhs_layer3_0 _ _).trans hk
    | ⟨1, _⟩ => exact rhs_layer3_1 _ _)
  rw [el, er]

/-- The output block's entry (r, c) from the finished accumulator `acc`, the biases `x4`, `x5`, `x6` (one row each)
    and the transposed weights `x2`, `x3`. -/
theorem epilogue_apply (acc : FVec Ideal S1024x256 .f32) (x4 : FVec Ideal S1x256 .f32) (x2 : FVec Ideal S256x256 .bf16)
    (x5 : FVec Ideal S1x256 .f32) (x3 : FVec Ideal S256x20 .bf16) (x6 : FVec Ideal S1x20 .f32) (r : Fin 1024) (c : Fin 20) :
    Body.epilogue (F := Ideal) acc x4 x2 x5 x3 x6 (ix2 r c)
      = (∑ k : Fin 256,
          max ((∑ k' : Fin 256, max (acc (ix2 r k') + x4 (ix2 (0 : Fin 1) k')) 0 * x2 (ix2 k' k)) + x5 (ix2 (0 : Fin 1) k)) 0
            * x3 (ix2 k c))
        + x6 (ix2 (0 : Fin 1) c) := by
  have hz : (FloatOps.ofBits (F := Ideal) .f32 0x00000000#32 : Ideal .f32) = 0 := Ideal.ofBits_zero_f32
  unfold Body.epilogue k0_pay1
  simp only [shapeCast_self]
  rw [addf_apply, layer3_apply, broadcastTo_1b_ab_apply]
  refine congrArg (· + x6 (ix2 (0 : Fin 1) c)) (Finset.sum_congr rfl fun k _ => ?_)
  rw [truncf_apply, maximumf_apply, broadcast_apply, addf_apply, layer2_apply, broadcastTo_1b_ab_apply, hz]
  refine congrArg (fun t => max (t + x5 (ix2 (0 : Fin 1) k)) 0 * x3 (ix2 k c)) (Finset.sum_congr rfl fun k' _ => ?_)
  rw [truncf_apply, maximumf_apply, broadcast_apply, addf_apply, broadcastTo_1b_ab_apply]

end Cert.KernelIdeal.EpiValue

end
-- ==== Proof.Blocks.lean ====
/-
  The blocks the pipeline hands the body, read from the argument arrays at the ideal values.  Point t = 50·i + j
  gets rows 1024·i … of `ids`, rows 1024·j … of the padded transposed first weight (zero past row 50256), and the
  whole transposed second and third weights and the three biases as one-row arrays.
-/
import proofs.«412731_j77412490543460_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The argument arrays on core `c`. -/
abbrev ids (c : Dev nD) : IVec S4096x200 32 := m ((c : Thread nD τ).loc main_arg0)
abbrev W1 (c : Dev nD) : FVec Ideal S256x50257 .f32 := m ((c : Thread nD τ).loc main_arg1)
abbrev b1 (c : Dev nD) : FVec Ideal S256 .f32 := m ((c : Thread nD τ).loc main_arg2)
abbrev W2 (c : Dev nD) : FVec Ideal S256x256 .f32 := m ((c : Thread nD τ).loc main_arg3)
abbrev b2 (c : Dev nD) : FVec Ideal S256 .f32 := m ((c : Thread nD τ).loc main_arg4)
abbrev W3 (c : Dev nD) : FVec Ideal S20x256 .f32 := m ((c : Thread nD τ).loc main_arg5)
abbrev b3 (c : Dev nD) : FVec Ideal S20 .f32 := m ((c : Thread nD τ).loc main_arg6)

/-- The seven input blocks at point `t`, each at its literal type. -/
abbrev idsBlk (c : Dev nD) (t : Fin cfg0.N) : IVec S1024x200 32 := iblk m c 0 t
abbrev w1Blk (c : Dev nD) (t : Fin cfg0.N) : FVec Ideal S1024x256 .bf16 := iblk m c 1 t
abbrev w2Blk (c : Dev nD) (t : Fin cfg0.N) : FVec Ideal S256x256 .bf16 := iblk m c 2 t
abbrev w3Blk (c : Dev nD) (t : Fin cfg0.N) : FVec Ideal S256x20 .bf16 := iblk m c 3 t
abbrev b1Blk (c : Dev nD) (t : Fin cfg0.N) : FVec Ideal S1x256 .f32 := iblk m c 4 t
abbrev b2Blk (c : Dev nD) (t : Fin cfg0.N) : FVec Ideal S1x256 .f32 := iblk m c 5 t
abbrev b3Blk (c : Dev nD) (t : Fin cfg0.N) : FVec Ideal S1x20 .f32 := iblk m c 6 t

theorem tdiv_lt (t : Fin cfg0.N) (r : Fin 1024) : 1024 * (t.val / 50) + r.val < 4096 := by
  have h := t.isLt; have hN : cfg0.N = 200 := N_0; have := r.isLt; omega

/-- Row `r` of the ids block at point `t` is row `1024·(t / 50) + r` of `ids`. -/
theorem idsBlk_apply (c : Dev nD) (t : Fin cfg0.N) (r : Fin 1024) (s : Fin 200) :
    idsBlk m c t (ix2 r s) = ids m c (ix2 ⟨1024 * (t.val / 50) + r.val, tdiv_lt t r⟩ s) := by
  have hi : ∀ t : Fin cfg0.N, win0_0.index t (0 : Fin 2) = t.val / 50 ∧ win0_0.index t (1 : Fin 2) = 0 :=
    (by decide +kernel : ∀ t : Fin grid0.N, _)
  show iblk m c 0 t (ix2 r s) = _
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * (t.val / 50) + r.val; rw [(hi t).1]; omega
  | ⟨1, _⟩ => show win0_0.index t 1 * 200 + 1 * s.val = s.val; rw [(hi t).2]; omega

/-- The first weight as the region finds it: transposed, padded below with 943 rows of the converted integer zero,
    then narrowed. -/
theorem v2_eq (c : Dev nD) :
    (V m c main_v2 : S51200x256.Idx → EReal)
      = truncf .bf16 (pad S51200x256 ![0, 0] ![943, 0] ![0, 0]
          (transpose S50257x256 [1, 0] (W1 m c) transposes_S256x50257_S50257x256_1_0)
          (sitofp (F := Ideal) .f32 (constantI S_ 32 0#32)) pads_S50257x256_S51200x256_09430_000 h_S_) bitsLt_bf16_f32 := by
  dsimp only [Gen.V]
  simp only [hostOps0, hostOps0_1, hostOps0_2, List.flatten_cons, List.flatten_nil, List.append_nil, List.cons_append,
    List.nil_append]
  after_results
  rfl

/-- A [50257, 256] array padded below to 51200 rows, read at row `r`: the array's own row below its extent, the padding
    value past it (no low padding and no interior padding, so the row number is unchanged). -/
theorem pad_rows_apply (x : S50257x256.Idx → EReal) (v : S_.Idx → EReal) (r : Fin 51200) (h : Fin 256) :
    pad S51200x256 ![0, 0] ![943, 0] ![0, 0] x v pads_S50257x256_S51200x256_09430_000 h_S_ (ix2 r h)
      = if hv : r.val < 50257 then x (ix2 ⟨r.val, hv⟩ h) else v (Shape.Idx.first h_S_) := by
  unfold pad
  by_cases hv : r.val < 50257
  · rw [dif_pos hv, dif_pos (fun a => by
      match a with
      | ⟨0, _⟩ => exact ⟨Nat.zero_le _, Nat.mod_one _, by show (r.val - 0) / (0 + 1) < 50257; rw [Nat.sub_zero, Nat.zero_add, Nat.div_one]; exact hv⟩
      | ⟨1, _⟩ => exact ⟨Nat.zero_le _, Nat.mod_one _, by show (h.val - 0) / (0 + 1) < 256; rw [Nat.sub_zero, Nat.zero_add, Nat.div_one]; exact h.isLt⟩)]
    congr 1
    funext a
    apply Fin.ext
    match a with
    | ⟨0, _⟩ => show (r.val - 0) / (0 + 1) = r.val; rw [Nat.sub_zero, Nat.zero_add, Nat.div_one]
    | ⟨1, _⟩ => show (h.val - 0) / (0 + 1) = h.val; rw [Nat.sub_zero, Nat.zero_add, Nat.div_one]
  · rw [dif_neg hv, dif_neg (fun hin => hv (by
      have h0 := (hin (0 : Fin 2)).2.2
      have h1 : (r.val - 0) / (0 + 1) < 50257 := h0
      rwa [Nat.sub_zero, Nat.zero_add, Nat.div_one] at h1))]

/-- Row `k` of the weight tile at point `t` is vocabulary entry `1024·(t % 50) + k` of the first weight, transposed;
    zero on the padding. -/
theorem w1Blk_apply (c : Dev nD) (t : Fin cfg0.N) (k : Fin 1024) (h : Fin 256) :
    w1Blk m c t (ix2 k h)
      = if hv : 1024 * (t.val % 50) + k.val < 50257 then W1 m c (ix2 h ⟨1024 * (t.val % 50) + k.val, hv⟩) else 0 := by
  have hi : ∀ t : Fin cfg0.N, win0_1.index t (0 : Fin 2) = t.val % 50 ∧ win0_1.index t (1 : Fin 2) = 0 :=
    (by decide +kernel : ∀ t : Fin grid0.N, _)
  have hr : 1024 * (t.val % 50) + k.val < 51200 := by have := k.isLt; omega
  show iblk m c 1 t (ix2 k h) = _
  unfold iblk
  rw [View.read_apply]
  show V m c main_v2 _ = _
  rw [v2_eq]
  refine (congrArg _ (?_ : _ = ix2 (⟨1024 * (t.val % 50) + k.val, hr⟩ : Fin 51200) h)).trans ?_
  · funext a
    apply Fin.ext
    match a with
    | ⟨0, _⟩ => show win0_1.index t 0 * 1024 + 1 * k.val = 1024 * (t.val % 50) + k.val; rw [(hi t).1]; omega
    | ⟨1, _⟩ => show win0_1.index t 1 * 256 + 1 * h.val = h.val; rw [(hi t).2]; omega
  · rw [truncf_apply, pad_rows_apply]
    by_cases hv : 1024 * (t.val % 50) + k.val < 50257
    · rw [dif_pos hv, dif_pos hv]
      exact transpose_apply _ _ _ _ (ix2 h ⟨_, hv⟩) (fun b => by match b with | ⟨0, _⟩ => rfl | ⟨1, _⟩ => rfl)
    · rw [dif_neg hv, dif_neg hv]
      show ((((0#32 : BitVec 32).toInt : ℤ) : ℝ) : EReal) = 0
      simp

/-- The second weight as the region finds it: transposed, then narrowed. -/
theorem v4_eq (c : Dev nD) :
    (V m c main_v4 : S256x256.Idx → EReal)
      = truncf .bf16 (transpose S256x256 [1, 0] (W2 m c) transposes_S256x256_S256x256_1_0) bitsLt_bf16_f32 := by
  dsimp only [Gen.V]
  simp only [hostOps0, hostOps0_1, hostOps0_2, List.flatten_cons, List.flatten_nil, List.append_nil, List.cons_append,
    List.nil_append]
  after_results

theorem w2Blk_apply (c : Dev nD) (t : Fin cfg0.N) (k h : Fin 256) : w2Blk m c t (ix2 k h) = W2 m c (ix2 h k) := by
  have hi : ∀ t : Fin cfg0.N, win0_2.index t (0 : Fin 2) = 0 ∧ win0_2.index t (1 : Fin 2) = 0 :=
    (by decide +kernel : ∀ t : Fin grid0.N, _)
  show iblk m c 2 t (ix2 k h) = _
  unfold iblk
  rw [View.read_apply]
  show V m c main_v4 _ = _
  rw [v4_eq]
  refine (congrArg _ (?_ : _ = ix2 k h)).trans ?_
  · funext a
    apply Fin.ext
    match a with
    | ⟨0, _⟩ => show win0_2.index t 0 * 256 + 1 * k.val = k.val; rw [(hi t).1]; omega
    | ⟨1, _⟩ => show win0_2.index t 1 * 256 + 1 * h.val = h.val; rw [(hi t).2]; omega
  · rw [truncf_apply]
    exact transpose_apply _ _ _ _ (ix2 h k) (fun b => by match b with | ⟨0, _⟩ => rfl | ⟨1, _⟩ => rfl)

/-- The third weight as the region finds it: transposed, then narrowed. -/
theorem v6_eq (c : Dev nD) :
    (V m c main_v6 : S256x20.Idx → EReal)
      = truncf .bf16 (transpose S256x20 [1, 0] (W3 m c) transposes_S20x256_S256x20_1_0) bitsLt_bf16_f32 := by
  dsimp only [Gen.V]
  simp only [hostOps0, hostOps0_1, hostOps0_2, List.flatten_cons, List.flatten_nil, List.append_nil, List.cons_append,
    List.nil_append]
  after_results

theorem w3Blk_apply (c : Dev nD) (t : Fin cfg0.N) (k : Fin 256) (q : Fin 20) : w3Blk m c t (ix2 k q) = W3 m c (ix2 q k) := by
  have hi : ∀ t : Fin cfg0.N, win0_3.index t (0 : Fin 2) = 0 ∧ win0_3.index t (1 : Fin 2) = 0 :=
    (by decide +kernel : ∀ t : Fin grid0.N, _)
  show iblk m c 3 t (ix2 k q) = _
  unfold iblk
  rw [View.read_apply]
  show V m c main_v6 _ = _
  rw [v6_eq]
  refine (congrArg _ (?_ : _ = ix2 k q)).trans ?_
  · funext a
    apply Fin.ext
    match a with
    | ⟨0, _⟩ => show win0_3.index t 0 * 256 + 1 * k.val = k.val; rw [(hi t).1]; omega
    | ⟨1, _⟩ => show win0_3.index t 1 * 20 + 1 * q.val = q.val; rw [(hi t).2]; omega
  · rw [truncf_apply]
    exact transpose_apply _ _ _ _ (ix2 q k) (fun b => by match b with | ⟨0, _⟩ => rfl | ⟨1, _⟩ => rfl)

/-- The first bias as the region finds it: recast as one row. -/
theorem v7_eq (c : Dev nD) :
    (V m c main_v7 : S1x256.Idx → EReal) = shapeCast S1x256 (b1 m c) shapeCasts_S256_S1x256 := by
  dsimp only [Gen.V]
  simp only [hostOps0, hostOps0_1, hostOps0_2, List.flatten_cons, List.flatten_nil, List.append_nil, List.cons_append,
    List.nil_append]
  after_results
  rfl

theorem b1Blk_apply (c : Dev nD) (t : Fin cfg0.N) (h : Fin 256) : b1Blk m c t (ix2 (0 : Fin 1) h) = b1 m c (ix1 h) := by
  have hi : ∀ t : Fin cfg0.N, win0_4.index t (0 : Fin 2) = 0 ∧ win0_4.index t (1 : Fin 2) = 0 :=
    (by decide +kernel : ∀ t : Fin grid0.N, _)
  show iblk m c 4 t (ix2 (0 : Fin 1) h) = _
  unfold iblk
  rw [View.read_apply]
  show V m c main_v7 _ = _
  rw [v7_eq]
  refine (congrArg _ (?_ : _ = ix2 (0 : Fin 1) h)).trans (shapeCast_a_1a_apply (b1 m c) shapeCasts_S256_S1x256 0 h)
  funext a
  apply Fin.ext
  match a with
  | ⟨0, _⟩ => show win0_4.index t 0 * 1 + 1 * 0 = 0; rw [(hi t).1]
  | ⟨1, _⟩ => show win0_4.index t 1 * 256 + 1 * h.val = h.val; rw [(hi t).2]; omega

/-- The second bias as the region finds it: recast as one row. -/
theorem v8_eq (c : Dev nD) :
    (V m c main_v8 : S1x256.Idx → EReal) = shapeCast S1x256 (b2 m c) shapeCasts_S256_S1x256 := by
  dsimp only [Gen.V]
  simp only [hostOps0, hostOps0_1, hostOps0_2, List.flatten_cons, List.flatten_nil, List.append_nil, List.cons_append,
    List.nil_append]
  after_results
  rfl

theorem b2Blk_apply (c : Dev nD) (t : Fin cfg0.N) (h : Fin 256) : b2Blk m c t (ix2 (0 : Fin 1) h) = b2 m c (ix1 h) := by
  have hi : ∀ t : Fin cfg0.N, win0_5.index t (0 : Fin 2) = 0 ∧ win0_5.index t (1 : Fin 2) = 0 :=
    (by decide +kernel : ∀ t : Fin grid0.N, _)
  show iblk m c 5 t (ix2 (0 : Fin 1) h) = _
  unfold iblk
  rw [View.read_apply]
  show V m c main_v8 _ = _
  rw [v8_eq]
  refine (congrArg _ (?_ : _ = ix2 (0 : Fin 1) h)).trans (shapeCast_a_1a_apply (b2 m c) shapeCasts_S256_S1x256 0 h)
  funext a
  apply Fin.ext
  match a with
  | ⟨0, _⟩ => show win0_5.index t 0 * 1 + 1 * 0 = 0; rw [(hi t).1]
  | ⟨1, _⟩ => show win0_5.index t 1 * 256 + 1 * h.val = h.val; rw [(hi t).2]; omega

/-- The third bias as the region finds it: recast as one row. -/
theorem v9_eq (c : Dev nD) :
    (V m c main_v9 : S1x20.Idx → EReal) = shapeCast S1x20 (b3 m c) shapeCasts_S20_S1x20 := by
  dsimp only [Gen.V]
  simp only [hostOps0, hostOps0_1, hostOps0_2, List.flatten_cons, List.flatten_nil, List.append_nil, List.cons_append,
    List.nil_append]
  after_results
  rfl

theorem b3Blk_apply (c : Dev nD) (t : Fin cfg0.N) (q : Fin 20) : b3Blk m c t (ix2 (0 : Fin 1) q) = b3 m c (ix1 q) := by
  have hi : ∀ t : Fin cfg0.N, win0_6.index t (0 : Fin 2) = 0 ∧ win0_6.index t (1 : Fin 2) = 0 :=
    (by decide +kernel : ∀ t : Fin grid0.N, _)
  show iblk m c 6 t (ix2 (0 : Fin 1) q) = _
  unfold iblk
  rw [View.read_apply]
  show V m c main_v9 _ = _
  rw [v9_eq]
  refine (congrArg _ (?_ : _ = ix2 (0 : Fin 1) q)).trans (shapeCast_a_1a_apply (b3 m c) shapeCasts_S20_S1x20 0 q)
  funext a
  apply Fin.ext
  match a with
  | ⟨0, _⟩ => show win0_6.index t 0 * 1 + 1 * 0 = 0; rw [(hi t).1]
  | ⟨1, _⟩ => show win0_6.index t 1 * 20 + 1 * q.val = q.val; rw [(hi t).2]; omega

end Cert.KernelIdeal.Blocks

end
-- ==== Proof.Accum.lean ====
/-
  The carried accumulator over a row block's 50 vocabulary tiles, and the output block.
  After the tiles 0 … j of row block q the accumulator's entry (r, h) is the sum over those tiles' vocabulary entries v
  of "row 1024·q + r holds v" times the padded transposed weight at (v, h); after the last tile that is the first layer's
  product over the whole vocabulary, the padding contributing nothing.  The output block of the last tile is the three
  layers applied to it.
-/
import proofs.«412731_j77412490543460_1_alg».proof.Proof.Gen.KernelIdeal.Value
import proofs.«412731_j77412490543460_1_alg».proof.Proof.Pieces
import proofs.«412731_j77412490543460_1_alg».proof.Proof.HotValue
import proofs.«412731_j77412490543460_1_alg».proof.Proof.EpiValue
import proofs.«412731_j77412490543460_1_alg».proof.Proof.Blocks
import proofs.«412731_j77412490543460_1_alg».proof.Proof.Spec

set_option maxRecDepth 16384

noncomputable section

open scoped BigOperators

namespace Cert.KernelIdeal.Accum

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Blocks

variable (m : (ℓ : Loc nD τ sig) → Buf (Elt Ideal) ℓ)

/-- Point t is tile t % 50 of row block t / 50. -/
theorem coords_facts : ∀ t : Fin cfg0.N, (grid0.coords t 0).val = t.val / 50 ∧ (grid0.coords t 1).val = t.val % 50 :=
  (by decide +kernel : ∀ t : Fin grid0.N, (grid0.coords t 0).val = t.val / 50 ∧ (grid0.coords t 1).val = t.val % 50)

/-- At a row block's first tile the accumulator is stepped from zero, whatever it held. -/
theorem scAt_reset (c : Dev nD) (n : ℕ) (hb : n < cfg0.N) (h0 : n % 50 = 0) (acc : Vec Ideal S1024x256 .f32) :
    Value.scAt0_0 m c n hb acc
      = Body.stepAcc (F := Ideal) (grid0.coords ⟨n, hb⟩) (idsBlk m c ⟨n, hb⟩) (w1Blk m c ⟨n, hb⟩) (k0_pay2 (F := Ideal)) := by
  unfold Value.scAt0_0
  rw [dif_pos h0, dif_neg (by omega)]
  exact Pieces.sout_A ..

/-- At every later tile it is stepped from what the tile before left. -/
theorem scAt_step (c : Dev nD) (n : ℕ) (hb : n < cfg0.N) (h0 : ¬n % 50 = 0) (acc : Vec Ideal S1024x256 .f32) :
    Value.scAt0_0 m c n hb acc
      = Body.stepAcc (F := Ideal) (grid0.coords ⟨n, hb⟩) (idsBlk m c ⟨n, hb⟩) (w1Blk m c ⟨n, hb⟩) acc := by
  unfold Value.scAt0_0
  rw [dif_neg h0]
  by_cases h1 : n % 50 = 49
  · rw [dif_pos h1]; exact Pieces.sout_C ..
  · rw [dif_neg h1]; exact Pieces.sout_B ..

/-- The reset value is zero everywhere. -/
theorem zero_apply (y : S1024x256.Idx) : k0_pay2 (F := Ideal) y = 0 := by
  unfold k0_pay2
  simp only [shapeCast_self]
  exact Ideal.ofBits_zero_f32

/-- Tile `n`'s contribution to the accumulator's entry (r, h): over the tile's 1024 vocabulary entries, "the row's bag
    holds the entry" times the weight tile's entry. Zero past the grid. -/
def addend (c : Dev nD) (n : ℕ) (r : Fin 1024) (h : Fin 256) : EReal :=
  if hb : n < cfg0.N then
    ∑ k : Fin 1024,
      Cert.Spec.ind (∃ s : Fin 200, idsBlk m c ⟨n, hb⟩ (ix2 r s) = BitVec.ofNat 32 (1024 * (n % 50) + k.val))
        * w1Blk m c ⟨n, hb⟩ (ix2 k h)
  else 0

/-- The step at point `n`, read at an entry: what was there plus the tile's contribution. -/
theorem step_apply (c : Dev nD) (n : ℕ) (hb : n < cfg0.N) (acc : FVec Ideal S1024x256 .f32) (r : Fin 1024) (h : Fin 256) :
    Body.stepAcc (F := Ideal) (grid0.coords ⟨n, hb⟩) (idsBlk m c ⟨n, hb⟩) (w1Blk m c ⟨n, hb⟩) acc (ix2 r h)
      = acc (ix2 r h) + addend m c n r h := by
  have e : (grid0.coords ⟨n, hb⟩ 1).val = n % 50 := (coords_facts ⟨n, hb⟩).2
  rw [HotValue.stepAcc_apply, e]
  unfold addend
  rw [dif_pos hb]

/-- THE ACCUMULATOR after point `t`: the contributions of its row block's tiles 0 … t % 50. -/
theorem scratch_apply (c : Dev nD) (t : Fin cfg0.N) (r : Fin 1024) (h : Fin 256) :
    (outsAt0 m c t.val t.isLt).2 (ix2 r h)
      = ∑ s ∈ Finset.range (t.val % 50 + 1), addend m c (50 * (t.val / 50) + s) r h := by
  have hN : cfg0.N = 200 := N_0
  rw [Value.soutsAt0_0_eq m c t]
  have key := Pipeline.accAt_add_apply (N := cfg0.N) (ι := S1024x256.Idx) (β := EReal)
    (fun n hb => Value.scAt0_0 m c n hb (VS0_0.read (Elt Ideal) VS0_0.junk)) (Value.scAt0_0 m c)
    (fun _ => 0) (fun n i => addend m c n (i 0) (i 1)) (50 * (t.val / 50)) 49
    (fun hb i => by
      obtain ⟨r', h', rfl⟩ : ∃ (r' : Fin 1024) (h' : Fin 256), i = ix2 r' h' := ⟨i 0, i 1, eq_ix2 i⟩
      show Value.scAt0_0 m c _ hb _ (ix2 r' h') = 0 + addend m c _ r' h'
      rw [scAt_reset m c _ hb (by omega), step_apply, zero_apply])
    (fun n hb a i h1 h2 => by
      obtain ⟨r', h', rfl⟩ : ∃ (r' : Fin 1024) (h' : Fin 256), i = ix2 r' h' := ⟨i 0, i 1, eq_ix2 i⟩
      show Value.scAt0_0 m c n hb a (ix2 r' h') = a (ix2 r' h') + addend m c n r' h'
      rw [scAt_step m c n hb (by omega) a, step_apply])
    (t.val % 50) (by omega) (by have := t.isLt; omega) (ix2 r h)
  rw [key, zero_add]

/-- AFTER THE LAST TILE of a row block the accumulator is the first layer's product over the whole vocabulary: the tiles
    run through the padded vocabulary in order, and the padding's weights are zero. -/
theorem hidden_apply (c : Dev nD) (t : Fin cfg0.N) (h49 : t.val % 50 = 49) (r : Fin 1024) (h : Fin 256) :
    (outsAt0 m c t.val t.isLt).2 (ix2 r h)
      = Cert.Spec.hidden1 (ids m c) (W1 m c) ⟨1024 * (t.val / 50) + r.val, tdiv_lt t r⟩ h := by
  have hN : cfg0.N = 200 := N_0
  have ht := t.isLt
  rw [scratch_apply, h49]
  let f : ℕ → EReal := fun v =>
    Cert.Spec.hot (ids m c) ⟨1024 * (t.val / 50) + r.val, tdiv_lt t r⟩ v
      * (if hv : v < 50257 then W1 m c (ix2 h ⟨v, hv⟩) else 0)
  have hpad : ∀ v, 50257 ≤ v → f v = 0 := fun v hv => by
    show _ * (if hv : v < 50257 then _ else 0) = 0
    rw [dif_neg (by omega), mul_zero]
  have hadd : ∀ s ∈ Finset.range 50, addend m c (50 * (t.val / 50) + s) r h = ∑ k : Fin 1024, f (1024 * s + k.val) := by
    intro s hs
    have hs' : s < 50 := Finset.mem_range.mp hs
    have hb : 50 * (t.val / 50) + s < cfg0.N := by omega
    have hmod : (50 * (t.val / 50) + s) % 50 = s := by omega
    have hdiv : (50 * (t.val / 50) + s) / 50 = t.val / 50 := by omega
    unfold addend
    rw [dif_pos hb]
    refine Finset.sum_congr rfl fun k _ => ?_
    rw [w1Blk_apply, hmod]
    refine congrArg (· * _) (Cert.Spec.ind_congr (exists_congr fun s' => ?_))
    rw [idsBlk_apply]
    have e : (⟨1024 * ((⟨50 * (t.val / 50) + s, hb⟩ : Fin cfg0.N).val / 50) + r.val, tdiv_lt ⟨50 * (t.val / 50) + s, hb⟩ r⟩ : Fin 4096)
        = ⟨1024 * (t.val / 50) + r.val, tdiv_lt t r⟩ := Fin.ext (by show 1024 * ((50 * (t.val / 50) + s) / 50) + r.val = _; rw [hdiv])
    rw [e]
  rw [show (49 : ℕ) + 1 = 50 from rfl, Finset.sum_congr rfl hadd, Cert.Spec.sum_tiles f hpad]
  unfold Cert.Spec.hidden1
  refine Finset.sum_congr rfl fun v _ => ?_
  show _ * (if hv : v.val < 50257 then _ else 0) = _
  rw [dif_pos v.isLt]

/-- THE OUTPUT BLOCK of a row block's last tile: the three layers of the finished accumulator, which is the network's
    output on the block's rows. -/
theorem out_apply (c : Dev nD) (t : Fin cfg0.N) (h49 : t.val % 50 = 49) (r : Fin 1024) (q : Fin 20) :
    (outsAt0 m c t.val t.isLt).1 (ix2 r q)
      = Cert.Spec.outAt (ids m c) (W1 m c) (b1 m c) (W2 m c) (b2 m c) (W3 m c) (b3 m c)
          ⟨1024 * (t.val / 50) + r.val, tdiv_lt t r⟩ q := by
  have h0 : ¬t.val % 50 = 0 := by omega
  have e1 : (outsAt0 m c t.val t.isLt).1
      = Body.epilogue (F := Ideal) ((outsAt0 m c t.val t.isLt).2) (b1Blk m c t) (w2Blk m c t) (b2Blk m c t) (w3Blk m c t) (b3Blk m c t) := by
    rw [outsAt0_C m c t h0 h49]
    dsimp only
    exact (Pieces.out_C ..).trans (congrArg (fun a => Body.epilogue (F := Ideal) a _ _ _ _ _) (Pieces.sout_C ..).symm)
  rw [e1, EpiValue.epilogue_apply]
  unfold Cert.Spec.outAt
  simp only [hidden_apply m c t h49, b1Blk_apply, w2Blk_apply, b2Blk_apply, w3Blk_apply, b3Blk_apply]

end Cert.KernelIdeal.Accum

end
-- ==== Proof.Final.lean ====
/-
  From the output blocks to the output array, and the kernel's run with its result named.
  The output has one 1024-row block per row block q, written back once, after the row block's last vocabulary tile
  (point 50·q + 49); that block is rows 1024·q … 1024·q + 1023 of the specification, and the four blocks cover the array.
-/
import proofs.«412731_j77412490543460_1_alg».proof.Proof.Gen.KernelIdeal.Value
import proofs.«412731_j77412490543460_1_alg».proof.Proof.Accum

set_option maxRecDepth 16384

noncomputable section

namespace Cert.KernelIdeal.Final

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Blocks

variable (m : (ℓ : Loc nD τ sig) → Buf (Elt Ideal) ℓ) (ρ : Dev nD → PrngReg)

/-- The specification at core `c`'s argument arrays. -/
abbrev result (c : Dev nD) : S4096x20.Idx → Elt Ideal .f32 :=
  Cert.Spec.G (ids m c) (W1 m c) (b1 m c) (W2 m c) (b2 m c) (W3 m c) (b3 m c)

/-- Output window 7's block index at point t: row block t / 50, the one column block. -/
theorem out_index : ∀ t : Fin cfg0.N, win0_7.index t (0 : Fin 2) = t.val / 50 ∧ win0_7.index t (1 : Fin 2) = 0 :=
  (by decide +kernel : ∀ t : Fin grid0.N, win0_7.index t (0 : Fin 2) = t.val / 50 ∧ win0_7.index t (1 : Fin 2) = 0)

/-- What a writing-back point writes is its block of the specification. -/
theorem flushed_eq (c : Dev nD) (t : Fin cfg0.N) (hf : (cfg0.win 7).flush t = true) :
    (dats m 0 c).flushed 7 t = ((cfg0.win 7).blk t).view.read (Elt Ideal) (result m c) := by
  have h49 : t.val % 50 = 49 := (flush0_7 t).mp hf
  rw [Value.flushed7]
  funext j
  show (outsAt0 m c t.val t.isLt).1 j = result m c (((cfg0.win 7).blk t).view.emb j)
  have hj : j = ix2 (n0 := 1024) (n1 := 20) (j 0) (j 1) := eq_ix2 j
  rw [hj, Accum.out_apply m c t h49 (j 0) (j 1)]
  show _ = Cert.Spec.outAt _ _ _ _ _ _ _ _ _
  congr 1
  · apply Fin.ext
    show 1024 * (t.val / 50) + (j 0).val = win0_7.index t (0 : Fin 2) * 1024 + 1 * (j 0).val
    rw [(out_index t).1]; omega
  · apply Fin.ext
    show (j 1).val = win0_7.index t (1 : Fin 2) * 20 + 1 * (j 1).val
    rw [(out_index t).2]; omega

/-- An index of the output is in point t's block when each coordinate is in the block's range on its axis. -/
theorem mem_blk (t : Fin cfg0.N) (i : S4096x20.Idx) :
    i ∈ ((cfg0.win 7).blk t).view.set ↔ ∀ a : Fin 2, win0_7.index t a * S1024x20.size a ≤ (i a).val
      ∧ (i a).val < win0_7.index t a * S1024x20.size a + S1024x20.size a := by
  show i ∈ ((View.whole main_v10).slice (win0_7.rect t)).set ↔ _
  rw [View.set_slice_whole, Rect.mem_set_unit]
  exact Iff.rfl

/-- Every index of the output lies in the block of the point that ends its row block. -/
theorem cover (i : S4096x20.Idx) :
    ∃ t : Fin cfg0.N, (cfg0.win 7).flush t = true ∧ i ∈ ((cfg0.win 7).blk t).view.set := by
  have hi0 : (i 0).val < 4096 := (i 0).isLt
  have hi1 : (i 1).val < 20 := (i 1).isLt
  have hN : cfg0.N = 200 := N_0
  have hlt : 50 * ((i 0).val / 1024) + 49 < cfg0.N := by omega
  refine ⟨⟨50 * ((i 0).val / 1024) + 49, hlt⟩, (flush0_7 _).mpr (by show (50 * ((i 0).val / 1024) + 49) % 50 = 49; omega), ?_⟩
  rw [mem_blk]
  obtain ⟨e0, e1⟩ := out_index ⟨50 * ((i 0).val / 1024) + 49, hlt⟩
  have e0' : win0_7.index ⟨50 * ((i 0).val / 1024) + 49, hlt⟩ (0 : Fin 2) = (i 0).val / 1024 := by
    rw [e0]; show (50 * ((i 0).val / 1024) + 49) / 50 = _; omega
  intro a
  match a with
  | ⟨0, _⟩ =>
    show win0_7.index _ (0 : Fin 2) * 1024 ≤ (i 0).val ∧ (i 0).val < win0_7.index _ (0 : Fin 2) * 1024 + 1024
    rw [e0']; omega
  | ⟨1, _⟩ =>
    show win0_7.index _ (1 : Fin 2) * 20 ≤ (i 1).val ∧ (i 1).val < win0_7.index _ (1 : Fin 2) * 20 + 20
    rw [e1]; omega

/-- The output array after the run is the specification. -/
theorem final (c : Dev nD) : (dats m 0 c).arrAt 7 cfg0.N = result m c :=
  (dats m 0 c).arrAt_eq_of_cover 7 (result m c) (fun t hf => flushed_eq m c t hf) cover

/-- The kernel's run: it ends with the specification in the result array and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Final

end
-- ==== Proof.LibScatterSet.lean ====
/-
  A general fact about the host's scatter whose body returns the update ("set") and whose updates are all one
  constant `c`: the result at an index is `c` when some update lands there and the operand's element when none does.
  The scatter is a left fold over the updates in row-major order; with a constant update the order does not matter.
-/
import Idealize.ShloMosaic.PureOps

noncomputable section

namespace Cert.Lib

open Idealize.ShloMosaic

/-- A left fold keeps the constant `c` at the index `i` when every step keeps a `c` that is already there. -/
theorem foldl_apply_eq_of_keep {κ ν α : Type} (step : (κ → α) → ν → κ → α) (c : α) (i : κ)
    (hkeep : ∀ (r : κ → α) (n : ν), r i = c → step r n i = c) :
    ∀ (l : List ν) (x : κ → α), x i = c → (l.foldl step x) i = c := by
  intro l
  induction l with
  | nil => intro x hx; exact hx
  | cons n l ih =>
    intro x hx
    rw [List.foldl_cons]
    exact ih _ (hkeep x n hx)

/-- A left fold has the constant `c` at the index `i` when some `n` of the list is a hit, every step at a hit leaves
    `c` at `i`, and every step keeps a `c` already there: the hit's step writes it and the later steps keep it. -/
theorem foldl_apply_eq_of_exists {κ ν α : Type} (step : (κ → α) → ν → κ → α) (c : α) (i : κ) (hit : ν → Prop)
    (hhit : ∀ (r : κ → α) (n : ν), hit n → step r n i = c)
    (hkeep : ∀ (r : κ → α) (n : ν), r i = c → step r n i = c) :
    ∀ (l : List ν) (x : κ → α), (∃ n ∈ l, hit n) → (l.foldl step x) i = c := by
  intro l
  induction l with
  | nil => intro x h; obtain ⟨n, hn, _⟩ := h; cases hn
  | cons n l ih =>
    intro x h
    obtain ⟨m, hm, hmhit⟩ := h
    rw [List.foldl_cons]
    rcases List.mem_cons.1 hm with rfl | hm'
    · exact foldl_apply_eq_of_keep step c i hkeep l _ (hhit x m hmhit)
    · exact ih _ ⟨m, hm', hmhit⟩

/-- A left fold leaves the element at the index `i` alone when no `n` of the list is a hit and every step that is
    not at a hit leaves that element alone. -/
theorem foldl_apply_eq_of_forall_not {κ ν α : Type} (step : (κ → α) → ν → κ → α) (i : κ) (hit : ν → Prop)
    (hmiss : ∀ (r : κ → α) (n : ν), ¬ hit n → step r n i = r i) :
    ∀ (l : List ν) (x : κ → α), (∀ n ∈ l, ¬ hit n) → (l.foldl step x) i = x i := by
  intro l
  induction l with
  | nil => intro x _; rfl
  | cons n l ih =>
    intro x h
    rw [List.foldl_cons, ih _ (fun m hm => h m (List.mem_cons_of_mem n hm))]
    exact hmiss x n (h n List.mem_cons_self)

/-- Some update's result index is `i`: the scatter leaves the constant there. -/
theorem scatter_set_const_of_hit {α : Type} {w : Nat} {s si u : Shape} (d : ScatterDims s si u) (x : s.Idx → α)
    (idx : IVec si w) (c : α) (i : s.Idx) (h : ∃ j : u.Idx, d.resultIdx? j idx = some i) :
    Host.scatter d (fun _ b => b) x idx (fun _ => c) i = c := by
  obtain ⟨j, hj⟩ := h
  unfold Host.scatter
  refine foldl_apply_eq_of_exists _ c i (fun n => d.resultIdx? (u.rowMajor.symm n) idx = some i) ?_ ?_ _ x
    ⟨u.rowMajor j, List.mem_finRange _, by rw [Equiv.symm_apply_apply]; exact hj⟩
  · -- the step at a hit writes the update, which is `c`
    intro r n hn
    rw [hn]
    exact if_pos rfl
  · -- a step writes `c` at its own result index and leaves the other elements alone
    intro r n hr
    rcases d.resultIdx? (u.rowMajor.symm n) idx with _ | k
    · exact hr
    · dsimp only
      split
      · rfl
      · exact hr

/-- No update's result index is `i`: the scatter leaves the operand's element there. -/
theorem scatter_set_const_of_miss {α : Type} {w : Nat} {s si u : Shape} (d : ScatterDims s si u) (x : s.Idx → α)
    (idx : IVec si w) (c : α) (i : s.Idx) (h : ∀ j : u.Idx, d.resultIdx? j idx ≠ some i) :
    Host.scatter d (fun _ b => b) x idx (fun _ => c) i = x i := by
  unfold Host.scatter
  refine foldl_apply_eq_of_forall_not _ i (fun n => d.resultIdx? (u.rowMajor.symm n) idx = some i) ?_ _ x
    (fun n _ => h (u.rowMajor.symm n))
  -- a step whose result index is not `i` leaves the element at `i` alone
  intro r n hn
  rcases hk : d.resultIdx? (u.rowMajor.symm n) idx with _ | k
  · rfl
  · dsimp only
    rw [if_neg]
    intro hik
    exact hn (by rw [hk, hik])

end Cert.Lib

end
-- ==== Proof.RefValue.lean ====
/-
  The reference computes the specification.  Its one-hot array is a scatter of the constant 1 into zeros at the
  index pairs (row, id), a negative id first moved up by the vocabulary size; for ids that are not negative the pair
  lands in the array exactly when the id is a vocabulary entry, so the array is `Spec.hot`.  The three matrix products
  are plain sums at the ideal values.
-/
import proofs.«412731_j77412490543460_1_alg».proof.Proof.Gen.ReferenceIdeal.Read
import proofs.«412731_j77412490543460_1_alg».proof.Proof.Spec
import proofs.«412731_j77412490543460_1_alg».proof.Proof.LibScatterSet

noncomputable section

open scoped BigOperators

namespace Cert.ReferenceIdeal.RefValue

open Cert.ReferenceIdeal Cert.ReferenceIdeal.Gen Idealize.ShloMosaic Idealize.ShloMosaic.TcCoe Idealize.ShloMosaic.ValueIdx

/-! ## Words -/

/-- A word built from a natural below 2^31, read signed, is that natural. -/
theorem toInt_ofNat_small (n : Nat) (h : n < 2147483648) : (BitVec.ofNat 32 n).toInt = (n : Int) := by
  unfold BitVec.toInt
  rw [BitVec.toNat_ofNat]
  have e : n % 2 ^ 32 = n := Nat.mod_eq_of_lt (by omega)
  rw [e]
  split <;> omega

/-- A word that is not negative read signed is not below the zero word. -/
theorem slt_zero_of_nonneg (x : BitVec 32) (h : 0 ≤ x.toInt) : IntOp.cmpi .slt x 0#32 = 0#1 := by
  unfold IntOp.cmpi
  have : x.slt 0#32 = false := by
    unfold BitVec.slt
    simp only [BitVec.toInt_zero]
    exact decide_eq_false (by omega)
  simp only [this]
  rfl

/-- For a word that is not negative and a natural below 2^31: read signed it is the natural exactly when it is the
    natural's word. -/
theorem toInt_eq_iff (x : BitVec 32) (h : 0 ≤ x.toInt) (n : Nat) (hn : n < 2147483648) :
    x.toInt = (n : Int) ↔ x = BitVec.ofNat 32 n := by
  constructor
  · intro e
    apply BitVec.eq_of_toInt_eq
    rw [e, toInt_ofNat_small n hn]
  · intro e
    rw [e, toInt_ofNat_small n hn]

/-! ## The scatter's index array: the row on component 0, the id on component 1 -/

/-- The row index column: entry `b` is the word of `b` (the row is below 4096, so the wrap of a negative index
    does not apply). -/
theorem rowcol_apply (b : Fin 4096) (i : S4096x1.Idx) (hi : (i 0).val = b.val) :
    Read.val_main_v7 (F := Ideal) i = BitVec.ofNat 32 b.val := by
  have e1 : Read.val_main_v1 (F := Ideal) i = BitVec.ofNat 32 b.val := by
    rw [Read.val_main_v1_apply, Read.val_main_v0_apply]
    show BitVec.ofNat 32 (i 0).val = _
    rw [hi]
  rw [Read.val_main_v7_apply, Read.val_main_v4_apply, e1, Read.val_main_v3_apply, Read.val_main_c_apply]
  rw [slt_zero_of_nonneg _ (by rw [toInt_ofNat_small _ (by have := b.isLt; omega)]; omega)]
  exact select_zero _ _

/-- The ids after the wrap of negative entries: unchanged where the id is not negative. -/
theorem wrapped_apply (ids : IVec S4096x200 32) (j : S4096x200.Idx) (h : 0 ≤ (ids j).toInt) :
    Read.val_main_v12 (F := Ideal) ids j = ids j := by
  rw [Read.val_main_v12_apply, Read.val_main_v9_apply, Read.val_main_v8_apply, Read.val_main_c_1_apply,
    slt_zero_of_nonneg _ h]
  exact select_zero _ _

/-- The index array on component 0 holds the row. -/
theorem idxarr_row (ids : IVec S4096x200 32) (b : Fin 4096) (s : Fin 200) :
    Read.val_main_v16 (F := Ideal) ids (ix3 b s (0 : Fin 2)) = BitVec.ofNat 32 b.val := by
  unfold Read.val_main_v16
  rw [concatenate_pair_apply_left (2 : Fin S4096x200x2.rank) _ _ concatenates_S4096x200x1_S4096x200x1_S4096x200x2_d2
    (ix3 b s (0 : Fin 2)) rfl (ix3 b s (0 : Fin 1))
    (fun a => by match a with | ⟨0, _⟩ => rfl | ⟨1, _⟩ => rfl | ⟨2, _⟩ => rfl)]
  rw [Read.val_main_v14_apply, Read.val_main_v13_apply]
  exact rowcol_apply b _ rfl

/-- The index array on component 1 holds the id, where the id is not negative. -/
theorem idxarr_id (ids : IVec S4096x200 32) (b : Fin 4096) (s : Fin 200) (h : 0 ≤ (ids (ix2 b s)).toInt) :
    Read.val_main_v16 (F := Ideal) ids (ix3 b s (1 : Fin 2)) = ids (ix2 b s) := by
  unfold Read.val_main_v16
  rw [concatenate_pair_apply_right (2 : Fin S4096x200x2.rank) _ _ concatenates_S4096x200x1_S4096x200x1_S4096x200x2_d2
    (ix3 b s (1 : Fin 2)) rfl rfl (ix3 b s (0 : Fin 1))
    (fun a ha => by match a with | ⟨0, _⟩ => rfl | ⟨1, _⟩ => rfl | ⟨2, _⟩ => exact absurd rfl ha) rfl]
  rw [Read.val_main_v15_apply]
  have e : Read.idx_main_v15 (ix3 b s (0 : Fin 1)) = ix2 b s :=
    funext fun a => Fin.ext (by match a with | ⟨0, _⟩ => rfl | ⟨1, _⟩ => rfl)
  rw [e]
  exact wrapped_apply ids _ h

/-! ## The scatter -/

/-- The word of the scattered constant is the extended real 1. -/
theorem ofBits_one_f32 : Ideal.ofBits .f32 0x3F800000#32 = 1 := by
  have h : ((8388608 : ℝ) : EReal) * ((((2 : ℝ) ^ 23)⁻¹ : ℝ) : EReal) = 1 := by
    rw [← EReal.coe_mul]
    norm_num
  simpa [Ideal.ofBits, Ideal.ieee] using h

/-- An update lands at an operand index exactly when its start plus its window coordinate is that index on every
    axis. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hb : ∀ a, 0 ≤ d.start j idx a + d.window j a ∧ d.start j idx a + d.window j a < s.size a
    · rw [dif_pos hb] at h
      have ha := congrArg Fin.val (congrFun (Option.some.inj h) a)
      have := hb a
      simp only at ha
      omega
    · rw [dif_neg hb] at h
      cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

/-- The scatter's dimension numbers: both operand axes inserted, start components 0 and 1 on operand axes 0 and 1,
    the index vector on the index array's last axis. -/
abbrev sdims : ScatterDims S4096x50257 S4096x200x2 S4096x200 := scatter_S4096x50257_S4096x200x2_S4096x200_n_01_01_2

/-- Update `(b, s)` reads component `c` of its start at `(b, s, c)` of the index array: component 0. -/
theorem sdims_start0 {w : Nat} (b : Fin 4096) (s : Fin 200) (idx : IVec S4096x200x2 w) :
    sdims.start (ix2 b s) idx 0 = (idx (ix3 b s (0 : Fin 2))).toInt := by
  unfold ScatterDims.start
  rw [dif_pos (show (0 : Fin S4096x50257.rank) ∈ sdims.scatterDimsToOperandDims by decide)]
  have hsi : sdims.siIdx (ix2 b s) ⟨List.idxOf (0 : Fin S4096x50257.rank) sdims.scatterDimsToOperandDims,
      List.idxOf_lt_length_iff.2 (show (0 : Fin S4096x50257.rank) ∈ sdims.scatterDimsToOperandDims by decide)⟩
      = ix3 b s (0 : Fin 2) := by
    funext a; refine Fin.ext ?_
    match a with
    | ⟨0, _⟩ => rfl
    | ⟨1, _⟩ => rfl
    | ⟨2, _⟩ => rfl
  rw [hsi]

/-- Component 1. -/
theorem sdims_start1 {w : Nat} (b : Fin 4096) (s : Fin 200) (idx : IVec S4096x200x2 w) :
    sdims.start (ix2 b s) idx 1 = (idx (ix3 b s (1 : Fin 2))).toInt := by
  unfold ScatterDims.start
  rw [dif_pos (show (1 : Fin S4096x50257.rank) ∈ sdims.scatterDimsToOperandDims by decide)]
  have hsi : sdims.siIdx (ix2 b s) ⟨List.idxOf (1 : Fin S4096x50257.rank) sdims.scatterDimsToOperandDims,
      List.idxOf_lt_length_iff.2 (show (1 : Fin S4096x50257.rank) ∈ sdims.scatterDimsToOperandDims by decide)⟩
      = ix3 b s (1 : Fin 2) := by
    funext a; refine Fin.ext ?_
    match a with
    | ⟨0, _⟩ => rfl
    | ⟨1, _⟩ => rfl
    | ⟨2, _⟩ => rfl
  rw [hsi]

/-- Both operand axes are inserted: the window coordinate is 0 on each. -/
theorem sdims_window (j : S4096x200.Idx) (a : Fin S4096x50257.rank) : sdims.window j a = 0 := by
  unfold ScatterDims.window
  have e : sdims.sKept = [] := by decide
  rw [dif_neg (fun h => by rw [e] at h; cases h)]

/-- Update `(b, s)` lands at `(r, v)` exactly when `b` is the row `r` and the id at `(b, s)` is the word of `v`. -/
theorem lands_iff (ids : IVec S4096x200 32) (hpos : ∀ j : S4096x200.Idx, 0 ≤ (ids j).toInt) (b : Fin 4096)
    (s : Fin 200) (r : Fin 4096) (v : Fin 50257) :
    sdims.resultIdx? (ix2 b s) (Read.val_main_v16 (F := Ideal) ids) = some (ix2 r v)
      ↔ b = r ∧ ids (ix2 b s) = BitVec.ofNat 32 v.val := by
  rw [resultIdx?_eq_some_iff]
  have hb : b.val < 4096 := b.isLt
  have hv : v.val < 50257 := v.isLt
  have h0 : sdims.start (ix2 b s) (Read.val_main_v16 (F := Ideal) ids) 0 = (b.val : Int) := by
    rw [sdims_start0, idxarr_row, toInt_ofNat_small _ (by omega)]
  have h1 : sdims.start (ix2 b s) (Read.val_main_v16 (F := Ideal) ids) 1 = (ids (ix2 b s)).toInt := by
    rw [sdims_start1, idxarr_id _ _ _ (hpos _)]
  constructor
  · intro h
    have a0 := h 0
    have a1 := h 1
    rw [h0, sdims_window] at a0
    rw [h1, sdims_window] at a1
    refine ⟨Fin.ext ?_, (toInt_eq_iff _ (hpos _) v.val (by omega)).1 ?_⟩
    · have : ((ix2 r v : S4096x50257.Idx) 0).val = r.val := rfl
      omega
    · have : ((ix2 r v : S4096x50257.Idx) 1).val = v.val := rfl
      omega
  · rintro ⟨e0, e1⟩ a
    match a with
    | ⟨0, _⟩ =>
      show sdims.start (ix2 b s) (Read.val_main_v16 (F := Ideal) ids) 0 + (sdims.window (ix2 b s) 0 : Int) = (r.val : Int)
      rw [h0, sdims_window, ← e0]
      omega
    | ⟨1, _⟩ =>
      show sdims.start (ix2 b s) (Read.val_main_v16 (F := Ideal) ids) 1 + (sdims.window (ix2 b s) 1 : Int) = (v.val : Int)
      rw [h1, sdims_window, (toInt_eq_iff _ (hpos _) v.val (by omega)).2 e1]
      omega

/-- The reference's multi-hot array is the specification's: 1 where some position of the row holds the entry,
    0 elsewhere. -/
theorem onehot_apply (ids : IVec S4096x200 32) (hpos : ∀ j : S4096x200.Idx, 0 ≤ (ids j).toInt) (r : Fin 4096)
    (v : Fin 50257) :
    Read.val_main_v18 (F := Ideal) ids (ix2 r v) = Cert.Spec.hot ids r v.val := by
  have hu : Read.val_main_v17 (F := Ideal) = fun _ => Ideal.ofBits .f32 0x3F800000#32 :=
    funext fun i => by rw [Read.val_main_v17_apply]; rfl
  unfold Read.val_main_v18
  rw [hu]
  unfold Cert.Spec.hot
  by_cases h : ∃ s : Fin 200, ids (ix2 r s) = BitVec.ofNat 32 v.val
  · rw [Cert.Spec.ind_of h]
    obtain ⟨s, hs⟩ := h
    rw [Cert.Lib.scatter_set_const_of_hit sdims _ _ _ _ ⟨ix2 r s, (lands_iff ids hpos r s r v).2 ⟨rfl, hs⟩⟩]
    exact ofBits_one_f32
  · rw [Cert.Spec.ind_of_not h]
    rw [Cert.Lib.scatter_set_const_of_miss sdims _ _ _ _ (fun j hj => h (by
      obtain ⟨b, s, rfl⟩ : ∃ (b : Fin 4096) (s : Fin 200), j = ix2 b s := ⟨j 0, j 1, eq_ix2 j⟩
      obtain ⟨e0, e1⟩ := (lands_iff ids hpos b s r v).1 hj
      exact ⟨s, by rw [← e0]; exact e1⟩))]
    rw [Read.val_main_v2_apply, Read.val_main_cst_apply]
    exact Ideal.ofBits_zero_f32

/-! ## The three layers -/

/-- The first product: the multi-hot row against the transposed first weight. -/
theorem hidden1_apply (ids : IVec S4096x200 32) (W1 : FVec Ideal S256x50257 .f32)
    (hpos : ∀ j : S4096x200.Idx, 0 ≤ (ids j).toInt) (r : Fin 4096) (h : Fin 256) :
    Read.val_main_v20 (F := Ideal) ids W1 (ix2 r h) = Cert.Spec.hidden1 ids W1 r h := by
  rw [Read.val_main_v20_apply]
  unfold Cert.Spec.hidden1
  refine Finset.sum_congr rfl fun v _ => ?_
  have el : Read.lidx_main_v20 (ix2 r h) v = ix2 r v :=
    funext fun a => Fin.ext (by match a with | ⟨0, _⟩ => rfl | ⟨1, _⟩ => rfl)
  have er : Read.idx_main_v19 (Read.ridx_main_v20 (ix2 r h) v) = ix2 h v :=
    funext fun a => Fin.ext (by match a with | ⟨0, _⟩ => rfl | ⟨1, _⟩ => rfl)
  rw [el, onehot_apply ids hpos, Read.val_main_v19_apply, er]

/-- The first layer: the product plus the bias, cut off below at zero. -/
theorem layer1_apply (ids : IVec S4096x200 32) (W1 : FVec Ideal S256x50257 .f32) (b1 : FVec Ideal S256 .f32)
    (hpos : ∀ j : S4096x200.Idx, 0 ≤ (ids j).toInt) (r : Fin 4096) (k : Fin 256) :
    Read.val_main_v24 (F := Ideal) ids W1 b1 (ix2 r k) = max (Cert.Spec.hidden1 ids W1 r k + b1 (ix1 k)) 0 := by
  rw [Read.val_main_v24_apply, Read.val_main_v23_apply, hidden1_apply ids W1 hpos, Read.val_main_v22_apply,
    Read.val_main_v21_apply, Read.val_main_call0_v0_apply, Read.val_main_call0_cst_apply]
  have e : Read.idx_main_v21 (Read.idx_main_v22 (ix2 r k)) = ix1 k :=
    funext fun a => Fin.ext (by match a with | ⟨0, _⟩ => rfl)
  rw [e]
  simp only [Ideal.maximumf_def, Ideal.addf_def, Ideal.ofBits_def, Ideal.ofBits_zero_f32]

/-- The second layer: the first layer's row against the transposed second weight, plus the bias, cut off below at
    zero. -/
theorem layer2_apply (ids : IVec S4096x200 32) (W1 : FVec Ideal S256x50257 .f32) (b1 : FVec Ideal S256 .f32)
    (W2 : FVec Ideal S256x256 .f32) (b2 : FVec Ideal S256 .f32)
    (hpos : ∀ j : S4096x200.Idx, 0 ≤ (ids j).toInt) (r : Fin 4096) (k : Fin 256) :
    Read.val_main_v30 (F := Ideal) ids W1 b1 W2 b2 (ix2 r k)
      = max ((∑ k' : Fin 256, max (Cert.Spec.hidden1 ids W1 r k' + b1 (ix1 k')) 0 * W2 (ix2 k k')) + b2 (ix1 k)) 0 := by
  rw [Read.val_main_v30_apply, Read.val_main_v29_apply, Read.val_main_v26_apply, Read.val_main_v28_apply,
    Read.val_main_v27_apply, Read.val_main_call1_v0_apply, Read.val_main_call1_cst_apply]
  have e : Read.idx_main_v27 (Read.idx_main_v28 (ix2 r k)) = ix1 k :=
    funext fun a => Fin.ext (by match a with | ⟨0, _⟩ => rfl)
  have hs : ∑ k' : Fin 256, Read.val_main_v24 (F := Ideal) ids W1 b1 (Read.lidx_main_v26 (ix2 r k) k')
        * Read.val_main_v25 (F := Ideal) W2 (Read.ridx_main_v26 (ix2 r k) k')
      = ∑ k' : Fin 256, max (Cert.Spec.hidden1 ids W1 r k' + b1 (ix1 k')) 0 * W2 (ix2 k k') := by
    refine Finset.sum_congr rfl fun k' _ => ?_
    have el : Read.lidx_main_v26 (ix2 r k) k' = ix2 r k' :=
      funext fun a => Fin.ext (by match a with | ⟨0, _⟩ => rfl | ⟨1, _⟩ => rfl)
    have er : Read.idx_main_v25 (Read.ridx_main_v26 (ix2 r k) k') = ix2 k k' :=
      funext fun a => Fin.ext (by match a with | ⟨0, _⟩ => rfl | ⟨1, _⟩ => rfl)
    rw [el, layer1_apply ids W1 b1 hpos, Read.val_main_v25_apply, er]
  rw [e, hs]
  simp only [Ideal.maximumf_def, Ideal.addf_def, Ideal.ofBits_def, Ideal.ofBits_zero_f32]

/-- The output: the second layer's row against the transposed third weight, plus the bias. -/
theorem out_apply (ids : IVec S4096x200 32) (W1 : FVec Ideal S256x50257 .f32) (b1 : FVec Ideal S256 .f32)
    (W2 : FVec Ideal S256x256 .f32) (b2 : FVec Ideal S256 .f32) (W3 : FVec Ideal S20x256 .f32) (b3 : FVec Ideal S20 .f32)
    (hpos : ∀ j : S4096x200.Idx, 0 ≤ (ids j).toInt) (r : Fin 4096) (c : Fin 20) :
    Read.val_main_v35 (F := Ideal) ids W1 b1 W2 b2 W3 b3 (ix2 r c) = Cert.Spec.outAt ids W1 b1 W2 b2 W3 b3 r c := by
  rw [Read.val_main_v35_apply, Read.val_main_v32_apply, Read.val_main_v34_apply, Read.val_main_v33_apply]
  have e : Read.idx_main_v33 (Read.idx_main_v34 (ix2 r c)) = ix1 c :=
    funext fun a => Fin.ext (by match a with | ⟨0, _⟩ => rfl)
  have hs : ∑ k : Fin 256, Read.val_main_v30 (F := Ideal) ids W1 b1 W2 b2 (Read.lidx_main_v32 (ix2 r c) k)
        * Read.val_main_v31 (F := Ideal) W3 (Read.ridx_main_v32 (ix2 r c) k)
      = ∑ k : Fin 256, max ((∑ k' : Fin 256, max (Cert.Spec.hidden1 ids W1 r k' + b1 (ix1 k')) 0 * W2 (ix2 k k'))
          + b2 (ix1 k)) 0 * W3 (ix2 c k) := by
    refine Finset.sum_congr rfl fun k _ => ?_
    have el : Read.lidx_main_v32 (ix2 r c) k = ix2 r k :=
      funext fun a => Fin.ext (by match a with | ⟨0, _⟩ => rfl | ⟨1, _⟩ => rfl)
    have er : Read.idx_main_v31 (Read.ridx_main_v32 (ix2 r c) k) = ix2 c k :=
      funext fun a => Fin.ext (by match a with | ⟨0, _⟩ => rfl | ⟨1, _⟩ => rfl)
    rw [el, layer2_apply ids W1 b1 W2 b2 hpos, Read.val_main_v31_apply, er]
  rw [e, hs]
  unfold Cert.Spec.outAt
  simp only [Ideal.addf_def]

/-- The reference's result term is the specification, for ids that are not negative. -/
theorem result_eq (ids : IVec S4096x200 32) (W1 : FVec Ideal S256x50257 .f32) (b1 : FVec Ideal S256 .f32)
    (W2 : FVec Ideal S256x256 .f32) (b2 : FVec Ideal S256 .f32) (W3 : FVec Ideal S20x256 .f32) (b3 : FVec Ideal S20 .f32)
    (hpos : ∀ j : S4096x200.Idx, 0 ≤ (ids j).toInt) :
    Read.val_main_v35 (F := Ideal) ids W1 b1 W2 b2 W3 b3 = Cert.Spec.G ids W1 b1 W2 b2 W3 b3 := by
  funext i
  obtain ⟨r, c, rfl⟩ : ∃ (r : Fin 4096) (c : Fin 20), i = ix2 r c := ⟨i 0, i 1, eq_ix2 i⟩
  rw [out_apply ids W1 b1 W2 b2 W3 b3 hpos]
  rfl

end Cert.ReferenceIdeal.RefValue

end
-- ==== Proof.PreDecode.lean ====
/-
  What the precondition says of the ids: its last conjunct is "every id is at least 0", an and-reduction of a signed
  comparison with 0 over the whole array.
-/
import proofs.«412731_j77412490543460_1_alg».proof.Pre_finite_inputs
import Idealize.ShloMosaic.PureOps.Ideal
import Idealize.ShloMosaic.Lib.ReduceAll
import Idealize.ShloMosaic.Lib.StableHlo.Predicate

noncomputable section

namespace Cert.PreDecode

open Cert.Pre_finite_inputs Idealize.ShloMosaic

variable [Cert.Pre_finite_inputs.Facts]

/-- The reductions of the precondition end in an array of no axes, which has one index. -/
instance : Subsingleton S_.Idx := ⟨fun a b => funext fun d => d.elim0⟩

/-- Under the precondition no id is negative. -/
theorem ids_nonneg (ids : IVec S4096x200 32) (W1 : FVec Ideal S256x50257 .f32) (b1 : FVec Ideal S256 .f32)
    (W2 : FVec Ideal S256x256 .f32) (b2 : FVec Ideal S256 .f32) (W3 : FVec Ideal S20x256 .f32) (b3 : FVec Ideal S20 .f32)
    (h : Cert.Pre_finite_inputs.fn (F := Ideal) ids W1 b1 W2 b2 W3 b3 = fun _ => 1#1) :
    ∀ j : S4096x200.Idx, 0 ≤ (ids j).toInt := by
  intro j
  -- the predicate at its one index is a conjunction of words; its last conjunct is the and-reduction over the ids
  have h0 := congrFun h (fun a => a.elim0 : S_.Idx)
  dsimp only [Cert.Pre_finite_inputs.fn, Cert.Pre_finite_inputs.fn_part1] at h0
  have h1 := (IntOp.andi_eq_one.1 h0).2
  -- an and-reduction over every axis that is 1 met a 1 at every index
  have h2 := Host.reduce_andi_all _ _ _ _ _ h1 j
  -- the compared word is the broadcast of the constant 0; a signed "at least" that holds orders the signed values
  have h3 : (0#32 : BitVec 32).toInt ≤ (ids j).toInt := IntOp.cmpi_sge.1 h2
  rwa [show (0#32 : BitVec 32).toInt = 0 from by decide] at h3

end Cert.PreDecode

end
-- ==== Proof.lean ====
/-
  A multi-hot bag-of-tokens classifier: each of 4096 rows of `ids` holds 200 token ids; the row's multi-hot vector over
  the 50257-entry vocabulary (1 where the row holds the entry, repeats counting once) goes through two biased, rectified
  linear layers of width 256 and a biased linear layer to 20 classes.

  The reference scatters 1 into a [4096, 50257] array of zeros and multiplies it with the transposed first weight.  The
  kernel never builds that array: over a grid of 4 row blocks × 50 vocabulary tiles it compares the row block's ids with
  the tile's 1024 entries, adds the 200 indicator arrays, caps the sum at one, multiplies with the tile's rows of the
  zero-padded transposed weight and accumulates in a scratch buffer; after a row block's last tile it applies the three
  layers and writes the block of the result.

  Over the extended reals the two are the same function (Proof/Spec.lean's `G`) of ids that are not negative: the kernel's
  capped count is the indicator that some position matches (`Spec.min_count`), the tile sums run through the padded
  vocabulary in order and the padding's weights are zero (`Spec.sum_tiles`), and a matrix product into a zero accumulator
  is the host's product, a plain sum.  (A negative id the reference would wrap around to the end of the vocabulary, which
  the kernel's comparison with non-negative entries never matches: the precondition excludes it.  An id past the
  vocabulary both drop.)  No law used here needs the float inputs to be finite.

  The modules: Spec (the function and the two sum facts), Chain (the body's arithmetic named), HotValue and EpiValue (the
  accumulator step and the three layers at an index), Pieces (what each control case of the body leaves), Blocks (the
  input blocks from the arguments), Accum (the accumulator over a row block's tiles and the output block), Final (from
  blocks to the result array, and the kernel's run), LibScatterSet and RefValue (the reference's scatter and its run read
  as the specification), PreDecode (the precondition's statement about the ids).
-/
import proofs.«412731_j77412490543460_1_alg».proof.Defs
import proofs.«412731_j77412490543460_1_alg».proof.Proof.Gen.Kernel
import proofs.«412731_j77412490543460_1_alg».proof.Proof.Gen.Kernel.Skeleton
import proofs.«412731_j77412490543460_1_alg».proof.Proof.Gen.Kernel.Launch
import proofs.«412731_j77412490543460_1_alg».proof.Proof.Gen.Kernel.Points
import proofs.«412731_j77412490543460_1_alg».proof.Proof.Gen.Kernel.Frame
import proofs.«412731_j77412490543460_1_alg».proof.Proof.Gen.KernelIdeal
import proofs.«412731_j77412490543460_1_alg».proof.Proof.Gen.KernelIdeal.Skeleton
import proofs.«412731_j77412490543460_1_alg».proof.Proof.Gen.KernelIdeal.Launch
import proofs.«412731_j77412490543460_1_alg».proof.Proof.Gen.KernelIdeal.Points
import proofs.«412731_j77412490543460_1_alg».proof.Proof.Gen.KernelIdeal.Frame
import proofs.«412731_j77412490543460_1_alg».proof.Proof.Gen.ReferenceIdeal
import proofs.«412731_j77412490543460_1_alg».proof.Proof.Gen.Pre_finite_inputs
import proofs.«412731_j77412490543460_1_alg».proof.Proof.Gen.KernelIdeal.Value
import proofs.«412731_j77412490543460_1_alg».proof.Proof.Gen.ReferenceIdeal.Run
import proofs.«412731_j77412490543460_1_alg».proof.Proof.Gen.ReferenceIdeal.Read
import proofs.«412731_j77412490543460_1_alg».proof.Proof.Final
import proofs.«412731_j77412490543460_1_alg».proof.Proof.RefValue
import proofs.«412731_j77412490543460_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : @Cert.frame_Kernel Cert.Kernel.Gen.facts Cert.Pre_finite_inputs.Gen.facts :=
  fun m ρ _ => Cert.Kernel.Gen.frame m ρ

/-- So does the kernel at the ideal values. -/
theorem frame_ki : @Cert.frame_KernelIdeal Cert.KernelIdeal.Gen.facts Cert.Pre_finite_inputs.Gen.facts :=
  fun m ρ _ => Cert.KernelIdeal.Gen.frame m ρ

/-- The reference's run, its result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The kernel ends with the specification of its arguments in the result array, the reference with the specification of
    its own; the arguments agree, and under the precondition no id is negative. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v35 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [(hagree c).1, (hagree c).2.1, (hagree c).2.2.1, (hagree c).2.2.2.1, (hagree c).2.2.2.2.1, (hagree c).2.2.2.2.2.1,
    (hagree c).2.2.2.2.2.2]
  exact Cert.ReferenceIdeal.RefValue.result_eq _ _ _ _ _ _ _
    (@Cert.PreDecode.ids_nonneg Cert.Pre_finite_inputs.Gen.facts _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
